-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x13 : Shape := ⟨2, ![262144, 13]⟩
abbrev S262144x128 : Shape := ⟨2, ![262144, 128]⟩
abbrev S128x13 : Shape := ⟨2, ![128, 13]⟩
abbrev S128 : Shape := ⟨1, ![128]⟩
abbrev S128x128 : Shape := ⟨2, ![128, 128]⟩
abbrev S_ : Shape := ⟨0, ![]⟩

class Facts : Prop where
  bcast_S_S262144x13 : S_.BroadcastsInDim S262144x13 (![] : Fin 0 → Fin S262144x13.rank)
  reducesTo_S262144x13_S_d0_1 : S262144x13.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S128x13 : S_.BroadcastsInDim S128x13 (![] : Fin 0 → Fin S128x13.rank)
  reducesTo_S128x13_S_d0_1 : S128x13.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg18 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128 .f32) (main_arg15 : FVec F S128x13 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x13 .f32 := Host.absf main_arg15
  let main_cst_28 : FVec F S_ .f32 := constant S_ .f32 0x7F800000#32
  let main_v75 : FVec F S128x13 .f32 := broadcastInDim S128x13 ![] bcast_S_S128x13 main_cst_28
  let main_v76 : IVec S128x13 1 := cmpf .olt main_v74 main_v75
  let main_c_29 : IVec S_ 1 := constantI S_ 1 1#1
  let main_v77 : IVec S_ 1 := (fun x v => Host.reduce IntOp.andi x v reducesTo_S128x13_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x13 .f32) (main_arg12 : FVec F S128 .f32) (main_arg13 : FVec F S128x128 .f32) (main_arg14 : FVec F S128 .f32) (main_arg15 : FVec F S128x13 .f32) (main_arg16 : FVec F S128 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x13 .f32 := Host.absf main_arg11
  let main_cst_20 : FVec F S_ .f32 := constant S_ .f32 0x7F800000#32
  let main_v55 : FVec F S128x13 .f32 := broadcastInDim S128x13 ![] bcast_S_S128x13 main_cst_20
  let main_v56 : IVec S128x13 1 := cmpf .olt main_v54 main_v55
  let main_c_21 : IVec S_ 1 := constantI S_ 1 1#1
  let main_v57 : IVec S_ 1 := (fun x v => Host.reduce IntOp.andi x v reducesTo_S128x13_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S128x13 .f32) (main_arg8 : FVec F S128 .f32) (main_arg9 : FVec F S128x128 .f32) (main_arg10 : FVec F S128 .f32) (main_arg11 : FVec F S128x13 .f32) (main_arg12 : FVec F S128 .f32) (main_arg13 : FVec F S128x128 .f32) (main_arg14 : FVec F S128 .f32) (main_arg15 : FVec F S128x13 .f32) (main_arg16 : FVec F S128 .f32) (main_arg17 : FVec F S128x128 .f32) (main_arg18 : FVec F S128 .f32) (main_v33 : IVec S_ 1) : IVec S_ 1 :=
  let main_v34 : FVec F S128x13 .f32 := Host.absf main_arg7
  let main_cst_12 : FVec F S_ .f32 := constant S_ .f32 0x7F800000#32
  let main_v35 : FVec F S128x13 .f32 := broadcastInDim S128x13 ![] bcast_S_S128x13 main_cst_12
  let main_v36 : IVec S128x13 1 := cmpf .olt main_v34 main_v35
  let main_c_13 : IVec S_ 1 := constantI S_ 1 1#1
  let main_v37 : IVec S_ 1 := (fun x v => Host.reduce IntOp.andi x v reducesTo_S128x13_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S128x128 .f32) (main_arg6 : FVec F S128 .f32) (main_arg7 : FVec F S128x13 .f32) (main_arg8 : FVec F S128 .f32) (main_arg9 : FVec F S128x128 .f32) (main_arg10 : FVec F S128 .f32) (main_arg11 : FVec F S128x13 .f32) (main_arg12 : FVec F S128 .f32) (main_arg13 : FVec F S128x128 .f32) (main_arg14 : FVec F S128 .f32) (main_arg15 : FVec F S128x13 .f32) (main_arg16 : FVec F S128 .f32) (main_arg17 : FVec F S128x128 .f32) (main_arg18 : FVec F S128 .f32) (main_v13 : IVec S_ 1) (main_v16 : IVec S128x13 1) : IVec S_ 1 :=
  let main_c_5 : IVec S_ 1 := constantI S_ 1 1#1
  let main_v17 : IVec S_ 1 := (fun x v => Host.reduce IntOp.andi x v reducesTo_S128x13_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S262144x13 .f32) (main_arg1 : FVec F S262144x128 .f32) (main_arg2 : FVec F S262144x128 .f32) (main_arg3 : FVec F S128x13 .f32) (main_arg4 : FVec F S128 .f32) (main_arg5 : FVec F S128x128 .f32) (main_arg6 : FVec F S128 .f32) (main_arg7 : FVec F S128x13 .f32) (main_arg8 : FVec F S128 .f32) (main_arg9 : FVec F S128x128 .f32) (main_arg10 : FVec F S128 .f32) (main_arg11 : FVec F S128x13 .f32) (main_arg12 : FVec F S128 .f32) (main_arg13 : FVec F S128x128 .f32) (main_arg14 : FVec F S128 .f32) (main_arg15 : FVec F S128x13 .f32) (main_arg16 : FVec F S128 .f32) (main_arg17 : FVec F S128x128 .f32) (main_arg18 : FVec F S128 .f32) : IVec S_ 1 :=
  let main_v0 : FVec F S262144x13 .f32 := Host.absf main_arg0
  let main_cst : FVec F S_ .f32 := constant S_ .f32 0x7F800000#32
  let main_v1 : FVec F S262144x13 .f32 := broadcastInDim S262144x13 ![] bcast_S_S262144x13 main_cst
  let main_v2 : IVec S262144x13 1 := cmpf .olt main_v0 main_v1
  let main_c : IVec S_ 1 := constantI S_ 1 1#1
  let main_v3 : IVec S_ 1 := (fun x v => Host.reduce IntOp.andi x v reducesTo_S262144x13_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S128x13 .f32 := Host.absf main_arg3
  let main_cst_4 : FVec F S_ .f32 := constant S_ .f32 0x7F800000#32
  let main_v15 : FVec F S128x13 .f32 := broadcastInDim S128x13 ![] bcast_S_S128x13 main_cst_4
  let main_v16 : IVec S128x13 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S262144x13 : Shape := ⟨2, ![262144, 13]⟩
abbrev S262144x128 : Shape := ⟨2, ![262144, 128]⟩
abbrev S128x13 : Shape := ⟨2, ![128, 13]⟩
abbrev S128 : Shape := ⟨1, ![128]⟩
abbrev S128x128 : Shape := ⟨2, ![128, 128]⟩
abbrev S512x13 : Shape := ⟨2, ![512, 13]⟩
abbrev S512 : Shape := ⟨1, ![512]⟩
abbrev S512x128 : Shape := ⟨2, ![512, 128]⟩
abbrev S13x512 : Shape := ⟨2, ![13, 512]⟩
abbrev S128x512 : Shape := ⟨2, ![128, 512]⟩
abbrev S1x512 : Shape := ⟨2, ![1, 512]⟩
abbrev S2048x13 : Shape := ⟨2, ![2048, 13]⟩
abbrev S2048x128 : Shape := ⟨2, ![2048, 128]⟩
abbrev S2048x512 : Shape := ⟨2, ![2048, 512]⟩

abbrev nBuf : Space → Nat
  | .hbm => 29
  | .vmem => 14
  | .smem => 0
  | _ => 0

abbrev bufTy : (tb : Table) → Fin (tcTables nBuf tb) → BufTy
  | .hbm, ⟨0, _⟩ => ⟨S262144x13, .f32⟩
  | .hbm, ⟨1, _⟩ => ⟨S262144x128, .f32⟩
  | .hbm, ⟨2, _⟩ => ⟨S262144x128, .f32⟩
  | .hbm, ⟨3, _⟩ => ⟨S128x13, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x13, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x13, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x13, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S512x13, .f32⟩
  | .hbm, ⟨20, _⟩ => ⟨S512, .f32⟩
  | .hbm, ⟨21, _⟩ => ⟨S512x128, .f32⟩
  | .hbm, ⟨22, _⟩ => ⟨S512, .f32⟩
  | .hbm, ⟨23, _⟩ => ⟨S13x512, .f32⟩
  | .hbm, ⟨24, _⟩ => ⟨S128x512, .f32⟩
  | .hbm, ⟨25, _⟩ => ⟨S1x512, .f32⟩
  | .hbm, ⟨26, _⟩ => ⟨S1x512, .f32⟩
  | .hbm, ⟨27, _⟩ => ⟨S262144x128, .f32⟩
  | .hbm, ⟨28, _⟩ => ⟨S262144x128, .f32⟩
  | .local _ .vmem, ⟨0, _⟩ => ⟨S2048x13, .f32⟩
  | .local _ .vmem, ⟨1, _⟩ => ⟨S2048x13, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S13x512, .f32⟩
  | .local _ .vmem, ⟨7, _⟩ => ⟨S1x512, .f32⟩
  | .local _ .vmem, ⟨8, _⟩ => ⟨S128x512, .f32⟩
  | .local _ .vmem, ⟨9, _⟩ => ⟨S1x512, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S262144x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S13x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x13_S128x13_S128x13_S128x13_S512x13_d0 : Shape.Concatenates [S128x13, S128x13, S128x13, S128x13] S512x13 0
  concatenates_S128_S128_S128_S128_S512_d0 : Shape.Concatenates [S128, S128, S128, S128] S512 0
  concatenates_S128x128_S128x128_S128x128_S128x128_S512x128_d0 : Shape.Concatenates [S128x128, S128x128, S128x128, S128x128] S512x128 0
  transposes_S512x13_S13x512_1_0 : S512x13.Transposes [1, 0] S13x512
  transposes_S512x128_S128x512_1_0 : S512x128.Transposes [1, 0] S128x512
  shapeCasts_S512_S1x512 : S512.ShapeCasts S1x512
  inb_S2048x13_S2048x13_0_0 : ∀ a, (![0, 0] : Fin 2 → Nat) a + S2048x13.size a ≤ S2048x13.size a
  h_S2048x13 : 0 < S2048x13.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S13x512_S13x512_0_0 : ∀ a, (![0, 0] : Fin 2 → Nat) a + S13x512.size a ≤ S13x512.size a
  h_S13x512 : 0 < S13x512.numel
  shapeCasts_S13x512_S13x512 : S13x512.ShapeCasts S13x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x13_S13x512_S2048x512_1_0_0_1_n_n_wf : DotDims.WF S2048x13 S13x512 S2048x512 [1] [0] [0] [1] [] []
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x13.size a ≤ S262144x13.size a
  hwx0_0 : ∀ i : grid0.Coords, EltTy.bits .f32 = 32 ∨ (Rect.block (s := S262144x13) S2048x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x512.size a ≤ S13x512.size a
  hwx0_3 : ∀ i : grid0.Coords, EltTy.bits .f32 = 32 ∨ (Rect.block (s := S13x512) S13x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S262144x128.size a
  hwx0_8 : ∀ i : grid0.Coords, EltTy.bits .f32 = 32 ∨ (Rect.block (s := S262144x128) S2048x128.size (cc0_transform_8 i) (hinb0_8 i)).WholeWords (EltTy.packing .f32)

variable [Facts₀]

def dot_S2048x13_S13x512_S2048x512_1_0_0_1_n_n : DotDims S2048x13 S13x512 S2048x512 where
  lhsContracting := [1]
  rhsContracting := [0]
  lhsNonContracting := [0]
  rhsNonContracting := [1]
  lhsBatch := []
  rhsBatch := []
  wf := dot_S2048x13_S13x512_S2048x512_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S13x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x13 : Shape := ⟨2, ![262144, 13]⟩
abbrev S262144x128 : Shape := ⟨2, ![262144, 128]⟩
abbrev S128x13 : Shape := ⟨2, ![128, 13]⟩
abbrev S128 : Shape := ⟨1, ![128]⟩
abbrev S128x128 : Shape := ⟨2, ![128, 128]⟩
abbrev S512x13 : Shape := ⟨2, ![512, 13]⟩
abbrev S512 : Shape := ⟨1, ![512]⟩
abbrev S512x128 : Shape := ⟨2, ![512, 128]⟩
abbrev S13x512 : Shape := ⟨2, ![13, 512]⟩
abbrev S262144x512 : Shape := ⟨2, ![262144, 512]⟩
abbrev S1x512 : Shape := ⟨2, ![1, 512]⟩
abbrev S128x512 : Shape := ⟨2, ![128, 512]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S262144x13, .f32⟩
  | .hbm, ⟨1, _⟩ => ⟨S262144x128, .f32⟩
  | .hbm, ⟨2, _⟩ => ⟨S262144x128, .f32⟩
  | .hbm, ⟨3, _⟩ => ⟨S128x13, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x13, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x13, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x13, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S512x13, .f32⟩
  | .hbm, ⟨20, _⟩ => ⟨S512, .f32⟩
  | .hbm, ⟨21, _⟩ => ⟨S512x128, .f32⟩
  | .hbm, ⟨22, _⟩ => ⟨S512, .f32⟩
  | .hbm, ⟨23, _⟩ => ⟨S13x512, .f32⟩
  | .hbm, ⟨24, _⟩ => ⟨S262144x512, .f32⟩
  | .hbm, ⟨25, _⟩ => ⟨S1x512, .f32⟩
  | .hbm, ⟨26, _⟩ => ⟨S262144x512, .f32⟩
  | .hbm, ⟨27, _⟩ => ⟨S262144x512, .f32⟩
  | .hbm, ⟨28, _⟩ => ⟨S128x512, .f32⟩
  | .hbm, ⟨29, _⟩ => ⟨S262144x512, .f32⟩
  | .hbm, ⟨30, _⟩ => ⟨S262144x512, .f32⟩
  | .hbm, ⟨31, _⟩ => ⟨S1x512, .f32⟩
  | .hbm, ⟨32, _⟩ => ⟨S262144x512, .f32⟩
  | .hbm, ⟨33, _⟩ => ⟨S262144x512, .f32⟩
  | .hbm, ⟨34, _⟩ => ⟨S262144x128, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S_, .f32⟩
  | .hbm, ⟨49, _⟩ => ⟨S262144x128, .f32⟩
  | .hbm, ⟨50, _⟩ => ⟨S262144x128, .f32⟩
  | .hbm, ⟨51, _⟩ => ⟨S_, .f32⟩
  | .hbm, ⟨52, _⟩ => ⟨S262144x128, .f32⟩
  | .hbm, ⟨53, _⟩ => ⟨S262144x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S262144x128, .f32⟩
  | .hbm, ⟨58, _⟩ => ⟨S262144x128, .f32⟩
  | .hbm, ⟨59, _⟩ => ⟨S_, .f32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S262144x128, .f32⟩
  | .hbm, ⟨64, _⟩ => ⟨S_, .f32⟩
  | .hbm, ⟨65, _⟩ => ⟨S262144x128, .f32⟩
  | .hbm, ⟨66, _⟩ => ⟨S262144x128, .f32⟩
  | .hbm, ⟨67, _⟩ => ⟨S_, .f32⟩
  | .hbm, ⟨68, _⟩ => ⟨S262144x128, .f32⟩
  | .hbm, ⟨69, _⟩ => ⟨S262144x128, .f32⟩
  | .hbm, ⟨70, _⟩ => ⟨S262144x128, .f32⟩
  | .hbm, ⟨71, _⟩ => ⟨S262144x128, .f32⟩
  | .hbm, ⟨72, _⟩ => ⟨S262144x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S262144x128, .f32⟩
  | .hbm, ⟨77, _⟩ => ⟨S262144x128, .f32⟩
  | .hbm, ⟨78, _⟩ => ⟨S_, .f32⟩
  | .hbm, ⟨79, _⟩ => ⟨S262144x128, .f32⟩
  | .hbm, ⟨80, _⟩ => ⟨S262144x128, .f32⟩
  | .hbm, ⟨81, _⟩ => ⟨S262144x128, .f32⟩
  | _, _ => ⟨S262144x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_5 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_cst_8 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v41 : Ref sig .tc := ⟨.hbm, 80, rfl⟩
abbrev main_v42 : Ref sig .tc := ⟨.hbm, 81, rfl⟩

abbrev nD : Nat := 1
abbrev τ : Topo := Topo.v7x

variable {F : FTy → Type} [FloatOps F]

class Facts₀ : Prop where
  concatenates_S128x13_S128x13_S128x13_S128x13_S512x13_d0 : Shape.Concatenates [S128x13, S128x13, S128x13, S128x13] S512x13 0
  concatenates_S128_S128_S128_S128_S512_d0 : Shape.Concatenates [S128, S128, S128, S128] S512 0
  concatenates_S128x128_S128x128_S128x128_S128x128_S512x128_d0 : Shape.Concatenates [S128x128, S128x128, S128x128, S128x128] S512x128 0
  transposes_S512x13_S13x512_1_0 : S512x13.Transposes [1, 0] S13x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  transposes_S512x128_S128x512_1_0 : S512x128.Transposes [1, 0] S128x512
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  dot_S262144x13_S13x512_S262144x512_1_0_0_1_n_n_wf : DotDims.WF S262144x13 S13x512 S262144x512 [1] [0] [0] [1] [] []
  dot_S262144x128_S128x512_S262144x512_1_0_0_1_n_n_wf : DotDims.WF S262144x128 S128x512 S262144x512 [1] [0] [0] [1] [] []

variable [Facts₀]

def dot_S262144x13_S13x512_S262144x512_1_0_0_1_n_n : DotDims S262144x13 S13x512 S262144x512 where
  lhsContracting := [1]
  rhsContracting := [0]
  lhsNonContracting := [0]
  rhsNonContracting := [1]
  lhsBatch := []
  rhsBatch := []
  wf := dot_S262144x13_S13x512_S262144x512_1_0_0_1_n_n_wf
def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf

class Facts : Prop extends Facts₀ where

variable [Facts]
-- ==== Proof.CellFrame.lean ====
/-
  The frame of the fused gate kernel. @main first stacks the four gates' weights and biases (four
  concatenations, two transpositions, two reshapes); then one pipelined region walks the batch in
  128 blocks of 2048 rows. At each block the body reads seven staged inputs — the block of x, of h
  and of c, and the four stacked parameter arrays, staged once and kept — and overwrites the two
  staged outputs whole: the new hidden block and the new cell block, each a pure function of what
  was read. Nothing else is touched: every argument array ends as it started, and each output
  array ends as the blocks the body left, written back point by point.
-/
import proofs.«170013_j12979391168907_1_alg».proof.Proof.Gen.Kernel.Launch
import proofs.«170013_j12979391168907_1_alg».proof.Proof.Gen.Kernel.Skeleton
import proofs.«170013_j12979391168907_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the eight
    stacking operations. -/
abbrev atEntry (c : Dev nD) (b : Ref sig .tc) : Buf (Elt F) ((c : Thread nD τ).loc b) :=
  StableHlo.after hostOps0 (fun b => m (c, b)) b

/-- None of the stacking operations leaves its result at contents of the machine's choosing. -/
theorem stacking_fresh : (hostOps0 : List (HloOp τ sig (Elt F))).Forall fun op => op.fresh = ∅ := by
  simp only [List.Forall]; repeat' constructor

/-- @main is the stacking operations followed by the region. -/
theorem hmain (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub stacking_fresh main_chain

/-- The stacking operations write only their eight results: any other buffer is found as launched. -/
theorem atEntry_of_not_result (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    atEntry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- Every argument of @main is found as launched. -/
theorem atEntry_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    atEntry m c b = m ((c.tc : Thread nD τ).loc b) := atEntry_of_not_result m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not
    (a window staged once keeps its one block, whose index never moves), for any proof data whose
    array is the entry contents and whose body leaves the block in place. One statement per input
    window: the window is a literal so that its block's shape computes. -/
theorem before_in_0_of {c : Dev nD} (dat : Dat τ (Elt F) Unit ℕ (UR sig nD τ) ℕ cfg0 c) (hA : dat.A 0 = atEntry m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of {c : Dev nD} (dat : Dat τ (Elt F) Unit ℕ (UR sig nD τ) ℕ cfg0 c) (hA : dat.A 1 = atEntry m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of {c : Dev nD} (dat : Dat τ (Elt F) Unit ℕ (UR sig nD τ) ℕ cfg0 c) (hA : dat.A 2 = atEntry m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3_of {c : Dev nD} (dat : Dat τ (Elt F) Unit ℕ (UR sig nD τ) ℕ cfg0 c) (hA : dat.A 3 = atEntry m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4_of {c : Dev nD} (dat : Dat τ (Elt F) Unit ℕ (UR sig nD τ) ℕ cfg0 c) (hA : dat.A 4 = atEntry m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5_of {c : Dev nD} (dat : Dat τ (Elt F) Unit ℕ (UR sig nD τ) ℕ cfg0 c) (hA : dat.A 5 = atEntry m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6_of {c : Dev nD} (dat : Dat τ (Elt F) Unit ℕ (UR sig nD τ) ℕ cfg0 c) (hA : dat.A 6 = atEntry m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- At a final state satisfying the library's frame post, every argument array is as launched: the
    three streamed arguments are input windows' arrays, which end at their entry contents; the sixteen
    parameter arguments are staged by no window and end as the region found them; and the stacking
    operations wrote none of the nineteen. -/
theorem args_of_post (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  ⟨((h c).1 0).trans (((dats 0 c).arrAt_in 0 rfl _).trans ((hA c 0).trans (atEntry_arg m c main_arg0 (by decide)))),
    ((h c).1 1).trans (((dats 0 c).arrAt_in 1 rfl _).trans ((hA c 1).trans (atEntry_arg m c main_arg1 (by decide)))),
    ((h c).1 2).trans (((dats 0 c).arrAt_in 2 rfl _).trans ((hA c 2).trans (atEntry_arg m c main_arg2 (by decide)))),
    ((h c).2 main_arg3 (Pipeline.mem_restRefs_of main_arg3 (by decide) (by decide))).trans (atEntry_arg m c main_arg3 (by decide)),
    ((h c).2 main_arg4 (Pipeline.mem_restRefs_of main_arg4 (by decide) (by decide))).trans (atEntry_arg m c main_arg4 (by decide)),
    ((h c).2 main_arg5 (Pipeline.mem_restRefs_of main_arg5 (by decide) (by decide))).trans (atEntry_arg m c main_arg5 (by decide)),
    ((h c).2 main_arg6 (Pipeline.mem_restRefs_of main_arg6 (by decide) (by decide))).trans (atEntry_arg m c main_arg6 (by decide)),
    ((h c).2 main_arg7 (Pipeline.mem_restRefs_of main_arg7 (by decide) (by decide))).trans (atEntry_arg m c main_arg7 (by decide)),
    ((h c).2 main_arg8 (Pipeline.mem_restRefs_of main_arg8 (by decide) (by decide))).trans (atEntry_arg m c main_arg8 (by decide)),
    ((h c).2 main_arg9 (Pipeline.mem_restRefs_of main_arg9 (by decide) (by decide))).trans (atEntry_arg m c main_arg9 (by decide)),
    ((h c).2 main_arg10 (Pipeline.mem_restRefs_of main_arg10 (by decide) (by decide))).trans (atEntry_arg m c main_arg10 (by decide)),
    ((h c).2 main_arg11 (Pipeline.mem_restRefs_of main_arg11 (by decide) (by decide))).trans (atEntry_arg m c main_arg11 (by decide)),
    ((h c).2 main_arg12 (Pipeline.mem_restRefs_of main_arg12 (by decide) (by decide))).trans (atEntry_arg m c main_arg12 (by decide)),
    ((h c).2 main_arg13 (Pipeline.mem_restRefs_of main_arg13 (by decide) (by decide))).trans (atEntry_arg m c main_arg13 (by decide)),
    ((h c).2 main_arg14 (Pipeline.mem_restRefs_of main_arg14 (by decide) (by decide))).trans (atEntry_arg m c main_arg14 (by decide)),
    ((h c).2 main_arg15 (Pipeline.mem_restRefs_of main_arg15 (by decide) (by decide))).trans (atEntry_arg m c main_arg15 (by decide)),
    ((h c).2 main_arg16 (Pipeline.mem_restRefs_of main_arg16 (by decide) (by decide))).trans (atEntry_arg m c main_arg16 (by decide)),
    ((h c).2 main_arg17 (Pipeline.mem_restRefs_of main_arg17 (by decide) (by decide))).trans (atEntry_arg m c main_arg17 (by decide)),
    ((h c).2 main_arg18 (Pipeline.mem_restRefs_of main_arg18 (by decide) (by decide))).trans (atEntry_arg m c main_arg18 (by decide))⟩

/-- The frame claim's post from a run to the library's frame post. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_of_post m dats hA r h c) h

/-! ## The body's accesses -/

abbrev rX : Rect S2048x13 := Rect.unit (s := S2048x13) ![0, 0] S2048x13.size inb_S2048x13_S2048x13_0_0
abbrev rRow : Rect S2048x128 := Rect.unit (s := S2048x128) ![0, 0] S2048x128.size inb_S2048x128_S2048x128_0_0
abbrev rWx : Rect S13x512 := Rect.unit (s := S13x512) ![0, 0] S13x512.size inb_S13x512_S13x512_0_0
abbrev rWh : Rect S128x512 := Rect.unit (s := S128x512) ![0, 0] S128x512.size inb_S128x512_S128x512_0_0
abbrev rBias : Rect S1x512 := Rect.unit (s := S1x512) ![0, 0] S1x512.size inb_S1x512_S1x512_0_0

/-! ## What the body leaves in the two output buffers -/

/-- The new cell block, from the seven input blocks: the forget gate times the old cell plus the input
    gate times the clipped candidate — the one store into the second output, which covers it. -/
def cellOut (x : Vec F S2048x13 .f32) (h c : Vec F S2048x128 .f32) (wx : Vec F S13x512 .f32) (bx : Vec F S1x512 .f32)
    (wh : Vec F S128x512 .f32) (bh : Vec F S1x512 .f32) : Vec F S2048x128 .f32 :=
  View.canon [⟨rRow, k0_pay4 (View.ld x rX) (View.ld h rRow) (View.ld wx rWx) (View.ld wh rWh) (View.ld bx rBias) (View.ld bh rBias) (View.ld c rRow)⟩]

/-- The new hidden block: the output gate times the clipped new cell — the one store into the first
    output, which covers it. -/
def hiddenOut (x : Vec F S2048x13 .f32) (h c : Vec F S2048x128 .f32) (wx : Vec F S13x512 .f32) (bx : Vec F S1x512 .f32)
    (wh : Vec F S128x512 .f32) (bh : Vec F S1x512 .f32) : Vec F S2048x128 .f32 :=
  View.canon [⟨rRow, k0_pay1 (k0_pay3 (View.ld x rX) (View.ld h rRow) (View.ld wx rWx) (View.ld wh rWh) (View.ld bx rBias) (View.ld bh rBias))
    (k0_pay5 (View.ld x rX) (View.ld h rRow) (View.ld wx rWx) (View.ld wh rWh) (View.ld bx rBias) (View.ld bh rBias) (View.ld c rRow)) k0_pay6⟩]

/-- One store through the whole rectangle covers the buffer. -/
theorem cover_row (p0 : Vec F S2048x128 .f32) (y : S2048x128.Idx) :
    ∃ pc ∈ ([⟨rRow, p0⟩] : List (View.Piece (Elt F) S2048x128 .f32)), y ∈ pc.1.set :=
  View.cover_of_tiled [⟨rRow, p0⟩] S2048x128.size (by rfl) y

/-! ## The body's triple -/

set_option maxHeartbeats 1000000 in
/-- The body on whole staging memrefs, the seven inputs' at read contents and the two outputs' at
    anything, runs to the continuation holding the inputs' as they were and the outputs' at
    `hiddenOut` and `cellOut` of the inputs'. -/
theorem sound_kernel (c : Dev nD) (E : Set ℕ) (i : grid0.Coords)
    (arg1 : Memref sig .tc .vmem S2048x13 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S13x512 .f32) (harg4 : arg4.IsWhole)
    (arg5 : Memref sig .tc .vmem S1x512 .f32) (harg5 : arg5.IsWhole) (arg6 : Memref sig .tc .vmem S128x512 .f32) (harg6 : arg6.IsWhole)
    (arg7 : Memref sig .tc .vmem S1x512 .f32) (harg7 : arg7.IsWhole) (arg8 : Memref sig .tc .vmem S2048x128 .f32) (harg8 : arg8.IsWhole)
    (arg9 : Memref sig .tc .vmem S2048x128 .f32) (harg9 : arg9.IsWhole)
    (x0 : Vec F S2048x13 .f32) (x1 x2 : Vec F S2048x128 .f32) (x3 : Vec F S13x512 .f32) (x4 : Vec F S1x512 .f32)
    (x5 : Vec F S128x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (hiddenOut x0 x1 x2 x3 x4 x5 x6)
            ∗ owns (c : Thread nD τ) arg9 fullShare (cellOut x0 x1 x2 x3 x4 x5 x6)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover_row _)
  iexists _; isplitr
  swap; · iexact H8
  ipureintro
  try dsimp only
  exact View.read_writes_eq_canon _ _ _ (cover_row _)

/-! ## The pipeline's proof data -/

/-- The proof data of the pipeline on core `c`: the arrays as the region finds them; after the body at
    point `t` each input's buffer at its block and the two outputs' at `hiddenOut` and `cellOut` of the
    seven input blocks; the invariant the scoped rest and the generator register, untouched; nothing
    owed; full shares. -/
def dats (_ : Fin 1) (c : Dev nD) : Dat τ (Elt F) Unit ℕ (UR sig nD τ) ℕ cfg0 c where
  A w := atEntry m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hiddenOut (iblk m c 0 t) (iblk m c 1 t) (iblk m c 2 t) (iblk m c 3 t) (iblk m c 4 t) (iblk m c 5 t) (iblk m c 6 t)
    | ⟨8, _⟩ => cellOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = hiddenOut (iblk m c 0 t) (iblk m c 1 t) (iblk m c 2 t) (iblk m c 3 t) (iblk m c 4 t) (iblk m c 5 t) (iblk m c 6 t) := by dsimp only [dats]
theorem after_8 (c : Dev nD) (t : Fin cfg0.N) : (dats m 0 c).after 8 t
    = cellOut (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before_in_0_of m (dats m 0 c) (A_eq m c 0) (after_0 m c) t d
theorem before_1 (c : Dev nD) (t : Fin cfg0.N) (d) : (dats m 0 c).before 1 t d = iblk m c 1 t :=
  before_in_1_of m (dats m 0 c) (A_eq m c 1) (after_1 m c) t d
theorem before_2 (c : Dev nD) (t : Fin cfg0.N) (d) : (dats m 0 c).before 2 t d = iblk m c 2 t :=
  before_in_2_of m (dats m 0 c) (A_eq m c 2) (after_2 m c) t d
theorem before_3 (c : Dev nD) (t : Fin cfg0.N) (d) : (dats m 0 c).before 3 t d = iblk m c 3 t :=
  before_in_3_of m (dats m 0 c) (A_eq m c 3) (after_3 m c) t d
theorem before_4 (c : Dev nD) (t : Fin cfg0.N) (d) : (dats m 0 c).before 4 t d = iblk m c 4 t :=
  before_in_4_of m (dats m 0 c) (A_eq m c 4) (after_4 m c) t d
theorem before_5 (c : Dev nD) (t : Fin cfg0.N) (d) : (dats m 0 c).before 5 t d = iblk m c 5 t :=
  before_in_5_of m (dats m 0 c) (A_eq m c 5) (after_5 m c) t d
theorem before_6 (c : Dev nD) (t : Fin cfg0.N) (d) : (dats m 0 c).before 6 t d = iblk m c 6 t :=
  before_in_6_of m (dats m 0 c) (A_eq m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final
    state has each window's array at what the proof data computes — an input as found, an output as the
    blocks written back — and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Cell

end
-- ==== Proof.IdealCellFrame.lean ====
/-
  The frame of the fused gate kernel. @main first stacks the four gates' weights and biases (four
  concatenations, two transpositions, two reshapes); then one pipelined region walks the batch in
  128 blocks of 2048 rows. At each block the body reads seven staged inputs — the block of x, of h
  and of c, and the four stacked parameter arrays, staged once and kept — and overwrites the two
  staged outputs whole: the new hidden block and the new cell block, each a pure function of what
  was read. Nothing else is touched: every argument array ends as it started, and each output
  array ends as the blocks the body left, written back point by point.
-/
import proofs.«170013_j12979391168907_1_alg».proof.Proof.Gen.KernelIdeal.Launch
import proofs.«170013_j12979391168907_1_alg».proof.Proof.Gen.KernelIdeal.Skeleton
import proofs.«170013_j12979391168907_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the eight
    stacking operations. -/
abbrev atEntry (c : Dev nD) (b : Ref sig .tc) : Buf (Elt F) ((c : Thread nD τ).loc b) :=
  StableHlo.after hostOps0 (fun b => m (c, b)) b

/-- None of the stacking operations leaves its result at contents of the machine's choosing. -/
theorem stacking_fresh : (hostOps0 : List (HloOp τ sig (Elt F))).Forall fun op => op.fresh = ∅ := by
  simp only [List.Forall]; repeat' constructor

/-- @main is the stacking operations followed by the region. -/
theorem hmain (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub stacking_fresh main_chain

/-- The stacking operations write only their eight results: any other buffer is found as launched. -/
theorem atEntry_of_not_result (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    atEntry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- Every argument of @main is found as launched. -/
theorem atEntry_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    atEntry m c b = m ((c.tc : Thread nD τ).loc b) := atEntry_of_not_result m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not
    (a window staged once keeps its one block, whose index never moves), for any proof data whose
    array is the entry contents and whose body leaves the block in place. One statement per input
    window: the window is a literal so that its block's shape computes. -/
theorem before_in_0_of {c : Dev nD} (dat : Dat τ (Elt F) Unit ℕ (UR sig nD τ) ℕ cfg0 c) (hA : dat.A 0 = atEntry m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of {c : Dev nD} (dat : Dat τ (Elt F) Unit ℕ (UR sig nD τ) ℕ cfg0 c) (hA : dat.A 1 = atEntry m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of {c : Dev nD} (dat : Dat τ (Elt F) Unit ℕ (UR sig nD τ) ℕ cfg0 c) (hA : dat.A 2 = atEntry m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3_of {c : Dev nD} (dat : Dat τ (Elt F) Unit ℕ (UR sig nD τ) ℕ cfg0 c) (hA : dat.A 3 = atEntry m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4_of {c : Dev nD} (dat : Dat τ (Elt F) Unit ℕ (UR sig nD τ) ℕ cfg0 c) (hA : dat.A 4 = atEntry m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5_of {c : Dev nD} (dat : Dat τ (Elt F) Unit ℕ (UR sig nD τ) ℕ cfg0 c) (hA : dat.A 5 = atEntry m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6_of {c : Dev nD} (dat : Dat τ (Elt F) Unit ℕ (UR sig nD τ) ℕ cfg0 c) (hA : dat.A 6 = atEntry m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- At a final state satisfying the library's frame post, every argument array is as launched: the
    three streamed arguments are input windows' arrays, which end at their entry contents; the sixteen
    parameter arguments are staged by no window and end as the region found them; and the stacking
    operations wrote none of the nineteen. -/
theorem args_of_post (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  ⟨((h c).1 0).trans (((dats 0 c).arrAt_in 0 rfl _).trans ((hA c 0).trans (atEntry_arg m c main_arg0 (by decide)))),
    ((h c).1 1).trans (((dats 0 c).arrAt_in 1 rfl _).trans ((hA c 1).trans (atEntry_arg m c main_arg1 (by decide)))),
    ((h c).1 2).trans (((dats 0 c).arrAt_in 2 rfl _).trans ((hA c 2).trans (atEntry_arg m c main_arg2 (by decide)))),
    ((h c).2 main_arg3 (Pipeline.mem_restRefs_of main_arg3 (by decide) (by decide))).trans (atEntry_arg m c main_arg3 (by decide)),
    ((h c).2 main_arg4 (Pipeline.mem_restRefs_of main_arg4 (by decide) (by decide))).trans (atEntry_arg m c main_arg4 (by decide)),
    ((h c).2 main_arg5 (Pipeline.mem_restRefs_of main_arg5 (by decide) (by decide))).trans (atEntry_arg m c main_arg5 (by decide)),
    ((h c).2 main_arg6 (Pipeline.mem_restRefs_of main_arg6 (by decide) (by decide))).trans (atEntry_arg m c main_arg6 (by decide)),
    ((h c).2 main_arg7 (Pipeline.mem_restRefs_of main_arg7 (by decide) (by decide))).trans (atEntry_arg m c main_arg7 (by decide)),
    ((h c).2 main_arg8 (Pipeline.mem_restRefs_of main_arg8 (by decide) (by decide))).trans (atEntry_arg m c main_arg8 (by decide)),
    ((h c).2 main_arg9 (Pipeline.mem_restRefs_of main_arg9 (by decide) (by decide))).trans (atEntry_arg m c main_arg9 (by decide)),
    ((h c).2 main_arg10 (Pipeline.mem_restRefs_of main_arg10 (by decide) (by decide))).trans (atEntry_arg m c main_arg10 (by decide)),
    ((h c).2 main_arg11 (Pipeline.mem_restRefs_of main_arg11 (by decide) (by decide))).trans (atEntry_arg m c main_arg11 (by decide)),
    ((h c).2 main_arg12 (Pipeline.mem_restRefs_of main_arg12 (by decide) (by decide))).trans (atEntry_arg m c main_arg12 (by decide)),
    ((h c).2 main_arg13 (Pipeline.mem_restRefs_of main_arg13 (by decide) (by decide))).trans (atEntry_arg m c main_arg13 (by decide)),
    ((h c).2 main_arg14 (Pipeline.mem_restRefs_of main_arg14 (by decide) (by decide))).trans (atEntry_arg m c main_arg14 (by decide)),
    ((h c).2 main_arg15 (Pipeline.mem_restRefs_of main_arg15 (by decide) (by decide))).trans (atEntry_arg m c main_arg15 (by decide)),
    ((h c).2 main_arg16 (Pipeline.mem_restRefs_of main_arg16 (by decide) (by decide))).trans (atEntry_arg m c main_arg16 (by decide)),
    ((h c).2 main_arg17 (Pipeline.mem_restRefs_of main_arg17 (by decide) (by decide))).trans (atEntry_arg m c main_arg17 (by decide)),
    ((h c).2 main_arg18 (Pipeline.mem_restRefs_of main_arg18 (by decide) (by decide))).trans (atEntry_arg m c main_arg18 (by decide))⟩

/-- The frame claim's post from a run to the library's frame post. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_of_post m dats hA r h c) h

/-! ## The body's accesses -/

abbrev rX : Rect S2048x13 := Rect.unit (s := S2048x13) ![0, 0] S2048x13.size inb_S2048x13_S2048x13_0_0
abbrev rRow : Rect S2048x128 := Rect.unit (s := S2048x128) ![0, 0] S2048x128.size inb_S2048x128_S2048x128_0_0
abbrev rWx : Rect S13x512 := Rect.unit (s := S13x512) ![0, 0] S13x512.size inb_S13x512_S13x512_0_0
abbrev rWh : Rect S128x512 := Rect.unit (s := S128x512) ![0, 0] S128x512.size inb_S128x512_S128x512_0_0
abbrev rBias : Rect S1x512 := Rect.unit (s := S1x512) ![0, 0] S1x512.size inb_S1x512_S1x512_0_0

/-! ## What the body leaves in the two output buffers -/

/-- The new cell block, from the seven input blocks: the forget gate times the old cell plus the input
    gate times the clipped candidate — the one store into the second output, which covers it. -/
def cellOut (x : Vec F S2048x13 .f32) (h c : Vec F S2048x128 .f32) (wx : Vec F S13x512 .f32) (bx : Vec F S1x512 .f32)
    (wh : Vec F S128x512 .f32) (bh : Vec F S1x512 .f32) : Vec F S2048x128 .f32 :=
  View.canon [⟨rRow, k0_pay4 (View.ld x rX) (View.ld h rRow) (View.ld wx rWx) (View.ld wh rWh) (View.ld bx rBias) (View.ld bh rBias) (View.ld c rRow)⟩]

/-- The new hidden block: the output gate times the clipped new cell — the one store into the first
    output, which covers it. -/
def hiddenOut (x : Vec F S2048x13 .f32) (h c : Vec F S2048x128 .f32) (wx : Vec F S13x512 .f32) (bx : Vec F S1x512 .f32)
    (wh : Vec F S128x512 .f32) (bh : Vec F S1x512 .f32) : Vec F S2048x128 .f32 :=
  View.canon [⟨rRow, k0_pay1 (k0_pay3 (View.ld x rX) (View.ld h rRow) (View.ld wx rWx) (View.ld wh rWh) (View.ld bx rBias) (View.ld bh rBias))
    (k0_pay5 (View.ld x rX) (View.ld h rRow) (View.ld wx rWx) (View.ld wh rWh) (View.ld bx rBias) (View.ld bh rBias) (View.ld c rRow)) k0_pay6⟩]

/-- One store through the whole rectangle covers the buffer. -/
theorem cover_row (p0 : Vec F S2048x128 .f32) (y : S2048x128.Idx) :
    ∃ pc ∈ ([⟨rRow, p0⟩] : List (View.Piece (Elt F) S2048x128 .f32)), y ∈ pc.1.set :=
  View.cover_of_tiled [⟨rRow, p0⟩] S2048x128.size (by rfl) y

/-! ## The body's triple -/

set_option maxHeartbeats 1000000 in
/-- The body on whole staging memrefs, the seven inputs' at read contents and the two outputs' at
    anything, runs to the continuation holding the inputs' as they were and the outputs' at
    `hiddenOut` and `cellOut` of the inputs'. -/
theorem sound_kernel (c : Dev nD) (E : Set ℕ) (i : grid0.Coords)
    (arg1 : Memref sig .tc .vmem S2048x13 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S13x512 .f32) (harg4 : arg4.IsWhole)
    (arg5 : Memref sig .tc .vmem S1x512 .f32) (harg5 : arg5.IsWhole) (arg6 : Memref sig .tc .vmem S128x512 .f32) (harg6 : arg6.IsWhole)
    (arg7 : Memref sig .tc .vmem S1x512 .f32) (harg7 : arg7.IsWhole) (arg8 : Memref sig .tc .vmem S2048x128 .f32) (harg8 : arg8.IsWhole)
    (arg9 : Memref sig .tc .vmem S2048x128 .f32) (harg9 : arg9.IsWhole)
    (x0 : Vec F S2048x13 .f32) (x1 x2 : Vec F S2048x128 .f32) (x3 : Vec F S13x512 .f32) (x4 : Vec F S1x512 .f32)
    (x5 : Vec F S128x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (hiddenOut x0 x1 x2 x3 x4 x5 x6)
            ∗ owns (c : Thread nD τ) arg9 fullShare (cellOut x0 x1 x2 x3 x4 x5 x6)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover_row _)
  iexists _; isplitr
  swap; · iexact H8
  ipureintro
  try dsimp only
  exact View.read_writes_eq_canon _ _ _ (cover_row _)

/-! ## The pipeline's proof data -/

/-- The proof data of the pipeline on core `c`: the arrays as the region finds them; after the body at
    point `t` each input's buffer at its block and the two outputs' at `hiddenOut` and `cellOut` of the
    seven input blocks; the invariant the scoped rest and the generator register, untouched; nothing
    owed; full shares. -/
def dats (_ : Fin 1) (c : Dev nD) : Dat τ (Elt F) Unit ℕ (UR sig nD τ) ℕ cfg0 c where
  A w := atEntry m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hiddenOut (iblk m c 0 t) (iblk m c 1 t) (iblk m c 2 t) (iblk m c 3 t) (iblk m c 4 t) (iblk m c 5 t) (iblk m c 6 t)
    | ⟨8, _⟩ => cellOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = hiddenOut (iblk m c 0 t) (iblk m c 1 t) (iblk m c 2 t) (iblk m c 3 t) (iblk m c 4 t) (iblk m c 5 t) (iblk m c 6 t) := by dsimp only [dats]
theorem after_8 (c : Dev nD) (t : Fin cfg0.N) : (dats m 0 c).after 8 t
    = cellOut (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before_in_0_of m (dats m 0 c) (A_eq m c 0) (after_0 m c) t d
theorem before_1 (c : Dev nD) (t : Fin cfg0.N) (d) : (dats m 0 c).before 1 t d = iblk m c 1 t :=
  before_in_1_of m (dats m 0 c) (A_eq m c 1) (after_1 m c) t d
theorem before_2 (c : Dev nD) (t : Fin cfg0.N) (d) : (dats m 0 c).before 2 t d = iblk m c 2 t :=
  before_in_2_of m (dats m 0 c) (A_eq m c 2) (after_2 m c) t d
theorem before_3 (c : Dev nD) (t : Fin cfg0.N) (d) : (dats m 0 c).before 3 t d = iblk m c 3 t :=
  before_in_3_of m (dats m 0 c) (A_eq m c 3) (after_3 m c) t d
theorem before_4 (c : Dev nD) (t : Fin cfg0.N) (d) : (dats m 0 c).before 4 t d = iblk m c 4 t :=
  before_in_4_of m (dats m 0 c) (A_eq m c 4) (after_4 m c) t d
theorem before_5 (c : Dev nD) (t : Fin cfg0.N) (d) : (dats m 0 c).before 5 t d = iblk m c 5 t :=
  before_in_5_of m (dats m 0 c) (A_eq m c 5) (after_5 m c) t d
theorem before_6 (c : Dev nD) (t : Fin cfg0.N) (d) : (dats m 0 c).before 6 t d = iblk m c 6 t :=
  before_in_6_of m (dats m 0 c) (A_eq m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final
    state has each window's array at what the proof data computes — an input as found, an output as the
    blocks written back — and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Cell

end
-- ==== Proof.CellSpec.lean ====
/-
  What the fused gate kernel and its reference both compute, entry by entry, on the extended reals.

  Row r of the batch has 512 stacked pre-activations, one per gate column q:
      P r q = ((Σ_k x[r,k]·WxT[k,q] + bx[q]) + Σ_k h[r,k]·WhT[k,q]) + bh[q],
  the sums over the 13 input features and the 128 hidden units, the additions in this order. Columns
  0–127 feed the input gate, 128–255 the forget gate, 256–383 the candidate, 384–511 the output gate. With
  σ the logistic function and clip v = min(1, max(−1, v)),
      c'[r,j] = σ(P r (128+j))·c[r,j] + σ(P r j)·clip(P r (256+j)),
      h'[r,j] = σ(P r (384+j))·clip(c'[r,j]).
  The two bounds of clip are kept as the float literals both programs print, so they are never evaluated.
-/
import Idealize.ShloMosaic.PureOps.Ideal.Laws
import Idealize.ShloMosaic.Lib.ValueIdx

noncomputable section

namespace Cert.CellSpec

open Idealize.ShloMosaic Idealize.ShloMosaic.ValueIdx

/-- Clipping to [−1, 1], the bounds the printed literals. -/
def clip (v : EReal) : EReal :=
  min (Ideal.ofBits .f32 0x3F800000#32) (max (Ideal.ofBits .f32 0xBF800000#32) v)

/-- Row `r`'s stacked pre-activation at gate column `q`. -/
def pre (X : FVec Ideal ⟨2, ![262144, 13]⟩ .f32) (H : FVec Ideal ⟨2, ![262144, 128]⟩ .f32)
    (WxT : FVec Ideal ⟨2, ![13, 512]⟩ .f32) (WhT : FVec Ideal ⟨2, ![128, 512]⟩ .f32)
    (bx bh : FVec Ideal ⟨1, ![512]⟩ .f32) (r : Fin 262144) (q : Fin 512) : EReal :=
  (((∑ k : Fin 13, X (ix2 r k) * WxT (ix2 k q)) + bx (ix1 q)) + ∑ k : Fin 128, H (ix2 r k) * WhT (ix2 k q)) + bh (ix1 q)

/-- Gate column `off + j` of the 512, for the gate whose columns start at `off`. -/
def gateCol (off : Nat) (hoff : off + 128 ≤ 512) (j : Fin 128) : Fin 512 := ⟨off + j.val, by have := j.isLt; omega⟩

/-- The new cell entry from a row's 512 pre-activations and the old cell entry. -/
def cellAt (P : Fin 512 → EReal) (cOld : EReal) (j : Fin 128) : EReal :=
  Ideal.logistic (P (gateCol 128 (by decide) j)) * cOld + Ideal.logistic (P (gateCol 0 (by decide) j)) * clip (P (gateCol 256 (by decide) j))

/-- The new hidden entry. -/
def hiddenAt (P : Fin 512 → EReal) (cOld : EReal) (j : Fin 128) : EReal :=
  Ideal.logistic (P (gateCol 384 (by decide) j)) * clip (cellAt P cOld j)

/-- The new cell array, as one function of the seven arrays the gates are computed from. -/
def cellArr (X : FVec Ideal ⟨2, ![262144, 13]⟩ .f32) (H C : FVec Ideal ⟨2, ![262144, 128]⟩ .f32)
    (WxT : FVec Ideal ⟨2, ![13, 512]⟩ .f32) (WhT : FVec Ideal ⟨2, ![128, 512]⟩ .f32)
    (bx bh : FVec Ideal ⟨1, ![512]⟩ .f32) : FVec Ideal ⟨2, ![262144, 128]⟩ .f32 :=
  fun i => cellAt (pre X H WxT WhT bx bh ⟨(i 0).val, (i 0).isLt⟩) (C i) ⟨(i 1).val, (i 1).isLt⟩

/-- The new hidden array. -/
def hiddenArr (X : FVec Ideal ⟨2, ![262144, 13]⟩ .f32) (H C : FVec Ideal ⟨2, ![262144, 128]⟩ .f32)
    (WxT : FVec Ideal ⟨2, ![13, 512]⟩ .f32) (WhT : FVec Ideal ⟨2, ![128, 512]⟩ .f32)
    (bx bh : FVec Ideal ⟨1, ![512]⟩ .f32) : FVec Ideal ⟨2, ![262144, 128]⟩ .f32 :=
  fun i => hiddenAt (pre X H WxT WhT bx bh ⟨(i 0).val, (i 0).isLt⟩) (C i) ⟨(i 1).val, (i 1).isLt⟩

theorem cellArr_ix2 (X : FVec Ideal ⟨2, ![262144, 13]⟩ .f32) (H C : FVec Ideal ⟨2, ![262144, 128]⟩ .f32)
    (WxT : FVec Ideal ⟨2, ![13, 512]⟩ .f32) (WhT : FVec Ideal ⟨2, ![128, 512]⟩ .f32)
    (bx bh : FVec Ideal ⟨1, ![512]⟩ .f32) (r : Fin 262144) (j : Fin 128) :
    cellArr X H C WxT WhT bx bh (ix2 r j) = cellAt (pre X H WxT WhT bx bh r) (C (ix2 r j)) j := rfl

theorem hiddenArr_ix2 (X : FVec Ideal ⟨2, ![262144, 13]⟩ .f32) (H C : FVec Ideal ⟨2, ![262144, 128]⟩ .f32)
    (WxT : FVec Ideal ⟨2, ![13, 512]⟩ .f32) (WhT : FVec Ideal ⟨2, ![128, 512]⟩ .f32)
    (bx bh : FVec Ideal ⟨1, ![512]⟩ .f32) (r : Fin 262144) (j : Fin 128) :
    hiddenArr X H C WxT WhT bx bh (ix2 r j) = hiddenAt (pre X H WxT WhT bx bh r) (C (ix2 r j)) j := rfl

end Cert.CellSpec

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.IdealCellBody.lean ====
/-
  The kernel body's arithmetic read at one entry of a block. With the seven loaded blocks as
  variables, entry (p, q) of the 2048×512 pre-activation block is
      ((Σ_k x[p,k]·wx[k,q] + bx[0,q]) + Σ_k h[p,k]·wh[k,q]) + bh[0,q]
  (the two products accumulate into zero, a change of float format is the identity, the bias rows are
  broadcast down the block), and the two stored blocks are `CellSpec.cellAt` and `CellSpec.hiddenAt`
  of row p's pre-activations and the old cell entry.
-/
import proofs.«170013_j12979391168907_1_alg».proof.Proof.Gen.KernelIdeal.Skeleton
import proofs.«170013_j12979391168907_1_alg».proof.Proof.CellSpec
import proofs.«170013_j12979391168907_1_alg».proof.Proof.LibPlainDot
import Idealize.ShloMosaic.Lib.Pipeline.Value

noncomputable section

namespace Cert.KernelIdeal.CellBody

open Cert.KernelIdeal Cert.KernelIdeal.Gen Idealize.ShloMosaic Idealize.ShloMosaic.ValueIdx

/-- Row `p` of a block: its stacked pre-activation at gate column `q`, from the loaded blocks. -/
def blockPre (x : Vec Ideal S2048x13 .f32) (h : Vec Ideal S2048x128 .f32) (wx : Vec Ideal S13x512 .f32) (wh : Vec Ideal S128x512 .f32)
    (bx bh : Vec Ideal S1x512 .f32) (p : Fin 2048) (q : Fin 512) : EReal :=
  (((∑ k : Fin 13, x (ix2 p k) * wx (ix2 k q)) + bx (ix2 (0 : Fin 1) q)) + ∑ k : Fin 128, h (ix2 p k) * wh (ix2 k q)) + bh (ix2 (0 : Fin 1) q)

/-- The printed record of the 13-feature product is the plain 2048×13 by 13×512 one. -/
theorem dot13_eq : dot_S2048x13_S13x512_S2048x512_1_0_0_1_n_n = DotDims.plain 2048 13 512 := rfl

/-- The printed record of the 128-unit product is the plain 2048×128 by 128×512 one. -/
theorem dot128_eq : dot_S2048x128_S128x512_S2048x512_1_0_0_1_n_n = DotDims.plain 2048 128 512 := rfl

/-- A 1×512 bias row broadcast down the 2048 rows of the block reads, at (p, q), its entry (0, q). -/
theorem bias_apply (b : Vec Ideal S1x512 .f32) (p : Fin 2048) (q : Fin 512) :
    broadcastTo S2048x512 (shapeCast S1x512 b shapeCasts_S1x512_S1x512) broadcasts_S1x512_S2048x512 (ix2 p q)
      = b (ix2 (0 : Fin 1) q) := by
  rw [shapeCast_self]
  refine broadcastTo_apply b broadcasts_S1x512_S2048x512 (ix2 p q) (ix2 (0 : Fin 1) q) fun a => ?_
  match a with
  | ⟨0, _⟩ => rfl
  | ⟨1, _⟩ => rfl

/-- The input product at (p, q): the sum over the 13 features. -/
theorem mm13_apply (x : Vec Ideal S2048x13 .f32) (w : Vec Ideal S13x512 .f32) (p : Fin 2048) (q : Fin 512) :
    matmul (F := Ideal) dot_S2048x13_S13x512_S2048x512_1_0_0_1_n_n none (truncf (F := Ideal) .bf16 x bitsLt_bf16_f32)
        (truncf (F := Ideal) .bf16 (shapeCast S13x512 w shapeCasts_S13x512_S13x512) bitsLt_bf16_f32)
        (constant S2048x512 .f32 0x00000000#32) (ix2 p q)
      = ∑ k : Fin 13, x (ix2 p k) * w (ix2 k q) := by
  rw [shapeCast_self, dot13_eq]
  exact PlainDot.matmul_zero_apply 2048 13 512 (truncf (F := Ideal) .bf16 x bitsLt_bf16_f32) (truncf (F := Ideal) .bf16 w bitsLt_bf16_f32) p q

/-- The recurrent product at (p, q): the sum over the 128 hidden units. -/
theorem mm128_apply (x : Vec Ideal S2048x128 .f32) (w : Vec Ideal S128x512 .f32) (p : Fin 2048) (q : Fin 512) :
    matmul (F := Ideal) dot_S2048x128_S128x512_S2048x512_1_0_0_1_n_n none (truncf (F := Ideal) .bf16 x bitsLt_bf16_f32)
        (truncf (F := Ideal) .bf16 (shapeCast S128x512 w shapeCasts_S128x512_S128x512) bitsLt_bf16_f32)
        (constant S2048x512 .f32 0x00000000#32) (ix2 p q)
      = ∑ k : Fin 128, x (ix2 p k) * w (ix2 k q) := by
  rw [shapeCast_self, dot128_eq]
  exact PlainDot.matmul_zero_apply 2048 128 512 (truncf (F := Ideal) .bf16 x bitsLt_bf16_f32) (truncf (F := Ideal) .bf16 w bitsLt_bf16_f32) p q

theorem pay2_apply (v0 : Vec Ideal S2048x13 .f32) (v2 : Vec Ideal S2048x128 .f32) (v4 : Vec Ideal S13x512 .f32) (v7 : Vec Ideal S128x512 .f32)
    (v11 v17 : Vec Ideal S1x512 .f32) (p : Fin 2048) (q : Fin 512) :
    k0_pay2 (F := Ideal) v0 v2 v4 v7 v11 v17 (ix2 p q) = blockPre v0 v2 v4 v7 v11 v17 p q := by
  unfold k0_pay2 blockPre
  rw [addf_apply, addf_apply, addf_apply, mm13_apply, mm128_apply, bias_apply, bias_apply]

/-- A 128-column slice of the block at column offset `off`, at (p, j), is the block at (p, off + j). -/
theorem slice_apply (off : Nat) (hoff : off + 128 ≤ 512) (y : FVec Ideal S2048x512 .f32)
    (h : S2048x512.Slices ![0, off] S2048x128) (p : Fin 2048) (j : Fin 128) :
    extractStridedSlice S2048x128 ![0, off] y h (ix2 p j) = y (ix2 p (Cert.CellSpec.gateCol off hoff j)) := by
  refine extractStridedSlice_apply ![0, off] y h (ix2 p j) (ix2 p (Cert.CellSpec.gateCol off hoff j)) fun a => ?_
  match a with
  | ⟨0, _⟩ => exact (Nat.zero_add _).symm
  | ⟨1, _⟩ => rfl

theorem cell_apply (v0 : Vec Ideal S2048x13 .f32) (v2 : Vec Ideal S2048x128 .f32) (v4 : Vec Ideal S13x512 .f32) (v7 : Vec Ideal S128x512 .f32)
    (v11 v17 : Vec Ideal S1x512 .f32) (v32 : Vec Ideal S2048x128 .f32) (p : Fin 2048) (j : Fin 128) :
    k0_pay4 (F := Ideal) v0 v2 v4 v7 v11 v17 v32 (ix2 p j)
      = Cert.CellSpec.cellAt (blockPre v0 v2 v4 v7 v11 v17 p) (v32 (ix2 p j)) j := by
  unfold k0_pay4 Cert.CellSpec.cellAt Cert.CellSpec.clip
  show Ideal.logistic (extractStridedSlice S2048x128 ![0, 128] (k0_pay2 v0 v2 v4 v7 v11 v17) slices_S2048x512_o0_128_S2048x128 (ix2 p j)) * v32 (ix2 p j)
      + Ideal.logistic (extractStridedSlice S2048x128 ![0, 0] (k0_pay2 v0 v2 v4 v7 v11 v17) slices_S2048x512_o0_0_S2048x128 (ix2 p j))
        * min (Ideal.ofBits .f32 0x3F800000#32) (max (Ideal.ofBits .f32 0xBF800000#32)
            (extractStridedSlice S2048x128 ![0, 256] (k0_pay2 v0 v2 v4 v7 v11 v17) slices_S2048x512_o0_256_S2048x128 (ix2 p j))) = _
  rw [slice_apply 128 (by decide), slice_apply 0 (by decide), slice_apply 256 (by decide), pay2_apply, pay2_apply, pay2_apply]

theorem hidden_apply (v0 : Vec Ideal S2048x13 .f32) (v2 : Vec Ideal S2048x128 .f32) (v4 : Vec Ideal S13x512 .f32) (v7 : Vec Ideal S128x512 .f32)
    (v11 v17 : Vec Ideal S1x512 .f32) (v32 : Vec Ideal S2048x128 .f32) (p : Fin 2048) (j : Fin 128) :
    k0_pay1 (F := Ideal) (k0_pay3 v0 v2 v4 v7 v11 v17) (k0_pay5 v0 v2 v4 v7 v11 v17 v32) k0_pay6 (ix2 p j)
      = Cert.CellSpec.hiddenAt (blockPre v0 v2 v4 v7 v11 v17 p) (v32 (ix2 p j)) j := by
  unfold k0_pay1 k0_pay3 k0_pay5 k0_pay6 Cert.CellSpec.hiddenAt Cert.CellSpec.clip
  show Ideal.logistic (extractStridedSlice S2048x128 ![0, 384] (k0_pay2 v0 v2 v4 v7 v11 v17) slices_S2048x512_o0_384_S2048x128 (ix2 p j))
      * min (Ideal.ofBits .f32 0x3F800000#32) (max (Ideal.ofBits .f32 0xBF800000#32) (k0_pay4 v0 v2 v4 v7 v11 v17 v32 (ix2 p j))) = _
  rw [slice_apply 384 (by decide), pay2_apply, cell_apply]

end Cert.KernelIdeal.CellBody

end
-- ==== Proof.IdealCellValue.lean ====
/-
  The kernel's two result arrays, read off its frame run. Point t of the grid handles rows
  2048·t … 2048·t + 2047: its blocks of x, h, c and of both outputs are those rows of their arrays,
  and the four parameter windows are their whole arrays at every point. So what point t writes back
  is rows 2048·t … of the specification's arrays, and the 128 points' blocks tile the 262144 rows.
-/
import proofs.«170013_j12979391168907_1_alg».proof.Proof.IdealCellFrame
import proofs.«170013_j12979391168907_1_alg».proof.Proof.IdealCellBody
import proofs.«170013_j12979391168907_1_alg».proof.Proof.CellSpec
import Idealize.ShloMosaic.Lib.Pipeline.Value
import Idealize.ShloMosaic.Lib.StableHlo.Run

set_option maxRecDepth 16384

noncomputable section

namespace Cert.KernelIdeal.CellValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Cell Cert.KernelIdeal.CellBody

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the three streamed inputs and the two outputs sit
    at block row t, column block 0; the four parameter windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem N_eq : cfg0.N = 128 := N_0

/-- Row `p` of point `t`'s block is row `2048·t + p` of the array. -/
def rowOf (t : Fin cfg0.N) (p : Fin 2048) : Fin 262144 :=
  ⟨2048 * t.val + p.val, by have h := t.isLt; have hp := p.isLt; have hN : cfg0.N = 128 := N_0; omega⟩

/-- The x block at point t. -/
theorem xblk_apply (c : Dev nD) (t : Fin cfg0.N) (p : Fin 2048) (k : Fin 13) :
    iblk m c 0 t (ix2 p k) = m ((c.tc : Thread nD τ).loc main_arg0) (ix2 (rowOf t p) k) := by
  show ((cfg0.win 0).blk t).view.read (Elt Ideal) (atEntry m c main_arg0) (ix2 p k) = _
  rw [atEntry_arg m c main_arg0 (by decide)]
  show m ((c.tc : Thread nD τ).loc main_arg0) (((cfg0.win 0).blk t).view.emb (ix2 p k)) = _
  refine congrArg _ (funext fun a => Fin.ext ?_)
  obtain ⟨e00, e01, -⟩ := idx_facts t
  match a with
  | ⟨0, _⟩ => show win0_0.index t (0 : Fin 2) * 2048 + 1 * p.val = 2048 * t.val + p.val; omega
  | ⟨1, _⟩ => show win0_0.index t (1 : Fin 2) * 13 + 1 * k.val = k.val; omega

/-- The h block at point t. -/
theorem hblk_apply (c : Dev nD) (t : Fin cfg0.N) (p : Fin 2048) (k : Fin 128) :
    iblk m c 1 t (ix2 p k) = m ((c.tc : Thread nD τ).loc main_arg1) (ix2 (rowOf t p) k) := by
  show ((cfg0.win 1).blk t).view.read (Elt Ideal) (atEntry m c main_arg1) (ix2 p k) = _
  rw [atEntry_arg m c main_arg1 (by decide)]
  show m ((c.tc : Thread nD τ).loc main_arg1) (((cfg0.win 1).blk t).view.emb (ix2 p k)) = _
  refine congrArg _ (funext fun a => Fin.ext ?_)
  obtain ⟨-, -, e10, e11, -⟩ := idx_facts t
  match a with
  | ⟨0, _⟩ => show win0_1.index t (0 : Fin 2) * 2048 + 1 * p.val = 2048 * t.val + p.val; omega
  | ⟨1, _⟩ => show win0_1.index t (1 : Fin 2) * 128 + 1 * k.val = k.val; omega

/-- The old cell block at point t. -/
theorem cblk_apply (c : Dev nD) (t : Fin cfg0.N) (p : Fin 2048) (j : Fin 128) :
    iblk m c 2 t (ix2 p j) = m ((c.tc : Thread nD τ).loc main_arg2) (ix2 (rowOf t p) j) := by
  show ((cfg0.win 2).blk t).view.read (Elt Ideal) (atEntry m c main_arg2) (ix2 p j) = _
  rw [atEntry_arg m c main_arg2 (by decide)]
  show m ((c.tc : Thread nD τ).loc main_arg2) (((cfg0.win 2).blk t).view.emb (ix2 p j)) = _
  refine congrArg _ (funext fun a => Fin.ext ?_)
  obtain ⟨-, -, -, -, e20, e21, -⟩ := idx_facts t
  match a with
  | ⟨0, _⟩ => show win0_2.index t (0 : Fin 2) * 2048 + 1 * p.val = 2048 * t.val + p.val; omega
  | ⟨1, _⟩ => show win0_2.index t (1 : Fin 2) * 128 + 1 * j.val = j.val; omega

/-! ## The stacked parameter arrays the region finds -/

/-- The four gates' input weights, stacked row-wise (512 × 13). -/
abbrev stackWx (c : Dev nD) : FVec Ideal S512x13 .f32 :=
  concatenate S512x13 0 [⟨S128x13, m ((c.tc : Thread nD τ).loc main_arg3)⟩, ⟨S128x13, m ((c.tc : Thread nD τ).loc main_arg7)⟩,
    ⟨S128x13, m ((c.tc : Thread nD τ).loc main_arg11)⟩, ⟨S128x13, m ((c.tc : Thread nD τ).loc main_arg15)⟩] Facts₀.concatenates_S128x13_S128x13_S128x13_S128x13_S512x13_d0
/-- The four gates' hidden weights, stacked row-wise (512 × 128). -/
abbrev stackWh (c : Dev nD) : FVec Ideal S512x128 .f32 :=
  concatenate S512x128 0 [⟨S128x128, m ((c.tc : Thread nD τ).loc main_arg5)⟩, ⟨S128x128, m ((c.tc : Thread nD τ).loc main_arg9)⟩,
    ⟨S128x128, m ((c.tc : Thread nD τ).loc main_arg13)⟩, ⟨S128x128, m ((c.tc : Thread nD τ).loc main_arg17)⟩] Facts₀.concatenates_S128x128_S128x128_S128x128_S128x128_S512x128_d0
/-- The four gates' input biases, stacked (512). -/
abbrev stackBx (c : Dev nD) : FVec Ideal S512 .f32 :=
  concatenate S512 0 [⟨S128, m ((c.tc : Thread nD τ).loc main_arg4)⟩, ⟨S128, m ((c.tc : Thread nD τ).loc main_arg8)⟩,
    ⟨S128, m ((c.tc : Thread nD τ).loc main_arg12)⟩, ⟨S128, m ((c.tc : Thread nD τ).loc main_arg16)⟩] Facts₀.concatenates_S128_S128_S128_S128_S512_d0
/-- The four gates' hidden biases, stacked (512). -/
abbrev stackBh (c : Dev nD) : FVec Ideal S512 .f32 :=
  concatenate S512 0 [⟨S128, m ((c.tc : Thread nD τ).loc main_arg6)⟩, ⟨S128, m ((c.tc : Thread nD τ).loc main_arg10)⟩,
    ⟨S128, m ((c.tc : Thread nD τ).loc main_arg14)⟩, ⟨S128, m ((c.tc : Thread nD τ).loc main_arg18)⟩] Facts₀.concatenates_S128_S128_S128_S128_S512_d0
/-- The stacked input weights transposed (13 × 512). -/
abbrev wxT (c : Dev nD) : FVec Ideal S13x512 .f32 := transpose S13x512 [1, 0] (stackWx m c) Facts₀.transposes_S512x13_S13x512_1_0
/-- The stacked hidden weights transposed (128 × 512). -/
abbrev whT (c : Dev nD) : FVec Ideal S128x512 .f32 := transpose S128x512 [1, 0] (stackWh m c) Facts₀.transposes_S512x128_S128x512_1_0

theorem entry_v4 (c : Dev nD) : (atEntry m c main_v4 : S13x512.Idx → EReal) = wxT m c := by
  dsimp only [atEntry, hostOps0]; after_results; rfl
theorem entry_v5 (c : Dev nD) : (atEntry m c main_v5 : S128x512.Idx → EReal) = whT m c := by
  dsimp only [atEntry, hostOps0]; after_results; rfl
theorem entry_v6 (c : Dev nD) : (atEntry m c main_v6 : S1x512.Idx → EReal) = shapeCast S1x512 (stackBx m c) Facts₀.shapeCasts_S512_S1x512 := by
  dsimp only [atEntry, hostOps0]; after_results; rfl
theorem entry_v7 (c : Dev nD) : (atEntry m c main_v7 : S1x512.Idx → EReal) = shapeCast S1x512 (stackBh m c) Facts₀.shapeCasts_S512_S1x512 := by
  dsimp only [atEntry, hostOps0]; after_results; rfl

/-- A 512-vector reshaped to one row reads, at (0, q), its entry q. -/
theorem row_apply (b : FVec Ideal S512 .f32) (q : Fin 512) :
    shapeCast S1x512 b Facts₀.shapeCasts_S512_S1x512 (ix2 (0 : Fin 1) q) = b (ix1 q) := by
  refine (shapeCast_addUnit_apply ![512] b Facts₀.shapeCasts_S512_S1x512 (ix2 (0 : Fin 1) q)).trans (congrArg b ?_)
  funext a; match a with | ⟨0, _⟩ => rfl

/-- A parameter window's block is its whole array, at every point. -/
theorem wxblk_apply (c : Dev nD) (t : Fin cfg0.N) (k : Fin 13) (q : Fin 512) :
    iblk m c 3 t (ix2 k q) = wxT m c (ix2 k q) := by
  refine Eq.trans ?_ (congrFun (entry_v4 m c) (ix2 k q))
  show atEntry m c main_v4 (((cfg0.win 3).blk t).view.emb (ix2 k q)) = _
  refine congrArg _ (funext fun a => Fin.ext ?_)
  obtain ⟨-, -, -, -, -, -, e30, e31, -⟩ := idx_facts t
  match a with
  | ⟨0, _⟩ => show win0_3.index t (0 : Fin 2) * 13 + 1 * k.val = k.val; omega
  | ⟨1, _⟩ => show win0_3.index t (1 : Fin 2) * 512 + 1 * q.val = q.val; omega

theorem bxblk_apply (c : Dev nD) (t : Fin cfg0.N) (q : Fin 512) :
    iblk m c 4 t (ix2 (0 : Fin 1) q) = stackBx m c (ix1 q) := by
  refine Eq.trans ?_ ((congrFun (entry_v6 m c) (ix2 (0 : Fin 1) q)).trans (row_apply (stackBx m c) q))
  show atEntry m c main_v6 (((cfg0.win 4).blk t).view.emb (ix2 (0 : Fin 1) q)) = _
  refine congrArg _ (funext fun a => Fin.ext ?_)
  obtain ⟨-, -, -, -, -, -, -, -, e40, e41, -⟩ := idx_facts t
  match a with
  | ⟨0, _⟩ => show win0_4.index t (0 : Fin 2) * 1 + 1 * 0 = 0; omega
  | ⟨1, _⟩ => show win0_4.index t (1 : Fin 2) * 512 + 1 * q.val = q.val; omega

theorem whblk_apply (c : Dev nD) (t : Fin cfg0.N) (k : Fin 128) (q : Fin 512) :
    iblk m c 5 t (ix2 k q) = whT m c (ix2 k q) := by
  refine Eq.trans ?_ (congrFun (entry_v5 m c) (ix2 k q))
  show atEntry m c main_v5 (((cfg0.win 5).blk t).view.emb (ix2 k q)) = _
  refine congrArg _ (funext fun a => Fin.ext ?_)
  obtain ⟨-, -, -, -, -, -, -, -, -, -, e50, e51, -⟩ := idx_facts t
  match a with
  | ⟨0, _⟩ => show win0_5.index t (0 : Fin 2) * 128 + 1 * k.val = k.val; omega
  | ⟨1, _⟩ => show win0_5.index t (1 : Fin 2) * 512 + 1 * q.val = q.val; omega

theorem bhblk_apply (c : Dev nD) (t : Fin cfg0.N) (q : Fin 512) :
    iblk m c 6 t (ix2 (0 : Fin 1) q) = stackBh m c (ix1 q) := by
  refine Eq.trans ?_ ((congrFun (entry_v7 m c) (ix2 (0 : Fin 1) q)).trans (row_apply (stackBh m c) q))
  show atEntry m c main_v7 (((cfg0.win 6).blk t).view.emb (ix2 (0 : Fin 1) q)) = _
  refine congrArg _ (funext fun a => Fin.ext ?_)
  obtain ⟨-, -, -, -, -, -, -, -, -, -, -, -, e60, e61, -⟩ := idx_facts t
  match a with
  | ⟨0, _⟩ => show win0_6.index t (0 : Fin 2) * 1 + 1 * 0 = 0; omega
  | ⟨1, _⟩ => show win0_6.index t (1 : Fin 2) * 512 + 1 * q.val = q.val; omega

/-! ## What a point writes back -/

/-- Row p of point t's blocks has the pre-activations of row 2048·t + p of the arrays. -/
theorem blockPre_eq (c : Dev nD) (t : Fin cfg0.N) (p : Fin 2048) :
    blockPre (iblk m c 0 t) (iblk m c 1 t) (iblk m c 3 t) (iblk m c 5 t) (iblk m c 4 t) (iblk m c 6 t) p
      = Cert.CellSpec.pre (m ((c.tc : Thread nD τ).loc main_arg0)) (m ((c.tc : Thread nD τ).loc main_arg1)) (wxT m c) (whT m c) (stackBx m c) (stackBh m c) (rowOf t p) := by
  funext q
  unfold blockPre Cert.CellSpec.pre
  simp only [xblk_apply, hblk_apply, wxblk_apply, whblk_apply, bxblk_apply, bhblk_apply]

/-- Entry (p, j) of an output block at point t is entry (2048·t + p, j) of its array. -/
theorem out_emb (t : Fin cfg0.N) (p : Fin 2048) (j : Fin 128) :
    ((cfg0.win 8).blk t).view.emb (ix2 p j) = ix2 (rowOf t p) j ∧ ((cfg0.win 7).blk t).view.emb (ix2 p j) = ix2 (rowOf t p) j := by
  obtain ⟨-, -, -, -, -, -, -, -, -, -, -, -, -, -, e70, e71, e80, e81⟩ := idx_facts t
  constructor
  · funext a; apply Fin.ext
    match a with
    | ⟨0, _⟩ => show win0_8.index t (0 : Fin 2) * 2048 + 1 * p.val = 2048 * t.val + p.val; omega
    | ⟨1, _⟩ => show win0_8.index t (1 : Fin 2) * 128 + 1 * j.val = j.val; omega
  · funext a; apply Fin.ext
    match a with
    | ⟨0, _⟩ => show win0_7.index t (0 : Fin 2) * 2048 + 1 * p.val = 2048 * t.val + p.val; omega
    | ⟨1, _⟩ => show win0_7.index t (1 : Fin 2) * 128 + 1 * j.val = j.val; omega

/-- What point t writes back into the cell array is block t of the specification's cell array. -/
theorem flushed_cell (c : Dev nD) (t : Fin cfg0.N) :
    (dats m 0 c).flushed 8 t = ((cfg0.win 8).blk t).view.read (Elt Ideal) (Cert.CellSpec.cellArr (m ((c.tc : Thread nD τ).loc main_arg0)) (m ((c.tc : Thread nD τ).loc main_arg1)) (m ((c.tc : Thread nD τ).loc main_arg2)) (wxT m c) (whT m c) (stackBx m c) (stackBh m c)) := by
  show (cfg0.win 8).cut (grid0.coords t) ((dats m 0 c).after 8 t) = _
  rw [after_8]
  unfold cellOut
  rw [View.canon_unit_zero hz]
  simp only [View.ld_unit_zero (S := S2048x13) hz, View.ld_unit_zero (S := S2048x128) hz, View.ld_unit_zero (S := S13x512) hz,
    View.ld_unit_zero (S := S128x512) hz, View.ld_unit_zero (S := S1x512) hz]
  funext y
  obtain ⟨p, j, rfl⟩ : ∃ (p : Fin 2048) (j : Fin 128), y = ix2 p j := ⟨y 0, y 1, eq_ix2 y⟩
  refine (cell_apply (iblk m c 0 t) (iblk m c 1 t) (iblk m c 3 t) (iblk m c 5 t) (iblk m c 4 t) (iblk m c 6 t) (iblk m c 2 t) p j).trans ?_
  rw [blockPre_eq, cblk_apply]
  show _ = Cert.CellSpec.cellArr (m ((c.tc : Thread nD τ).loc main_arg0)) (m ((c.tc : Thread nD τ).loc main_arg1)) (m ((c.tc : Thread nD τ).loc main_arg2)) (wxT m c) (whT m c) (stackBx m c) (stackBh m c) (((cfg0.win 8).blk t).view.emb (ix2 p j))
  rw [(out_emb t p j).1, Cert.CellSpec.cellArr_ix2]

/-- What point t writes back into the hidden array is block t of the specification's hidden array. -/
theorem flushed_hidden (c : Dev nD) (t : Fin cfg0.N) :
    (dats m 0 c).flushed 7 t = ((cfg0.win 7).blk t).view.read (Elt Ideal) (Cert.CellSpec.hiddenArr (m ((c.tc : Thread nD τ).loc main_arg0)) (m ((c.tc : Thread nD τ).loc main_arg1)) (m ((c.tc : Thread nD τ).loc main_arg2)) (wxT m c) (whT m c) (stackBx m c) (stackBh m c)) := by
  show (cfg0.win 7).cut (grid0.coords t) ((dats m 0 c).after 7 t) = _
  rw [after_7]
  unfold hiddenOut
  rw [View.canon_unit_zero hz]
  simp only [View.ld_unit_zero (S := S2048x13) hz, View.ld_unit_zero (S := S2048x128) hz, View.ld_unit_zero (S := S13x512) hz,
    View.ld_unit_zero (S := S128x512) hz, View.ld_unit_zero (S := S1x512) hz]
  funext y
  obtain ⟨p, j, rfl⟩ : ∃ (p : Fin 2048) (j : Fin 128), y = ix2 p j := ⟨y 0, y 1, eq_ix2 y⟩
  refine (hidden_apply (iblk m c 0 t) (iblk m c 1 t) (iblk m c 3 t) (iblk m c 5 t) (iblk m c 4 t) (iblk m c 6 t) (iblk m c 2 t) p j).trans ?_
  rw [blockPre_eq, cblk_apply]
  show _ = Cert.CellSpec.hiddenArr (m ((c.tc : Thread nD τ).loc main_arg0)) (m ((c.tc : Thread nD τ).loc main_arg1)) (m ((c.tc : Thread nD τ).loc main_arg2)) (wxT m c) (whT m c) (stackBx m c) (stackBh m c) (((cfg0.win 7).blk t).view.emb (ix2 p j))
  rw [(out_emb t p j).2, Cert.CellSpec.hiddenArr_ix2]

/-! ## The two result arrays after the run -/

theorem mem_blk8 (t : Fin cfg0.N) (i : S262144x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v8_1).slice (win0_8.rect t)).set ↔ _
  rw [View.set_slice_whole, Rect.mem_set_unit]
  exact Iff.rfl

/-- Row i₀ lies in the block of point ⌊i₀ / 2048⌋: the 128 points' blocks tile the array. -/
theorem cover8 (i : S262144x128.Idx) : ∃ t : Fin cfg0.N, (cfg0.win 8).flush t = true ∧ i ∈ ((cfg0.win 8).blk t).view.set := by
  have hi0 : (i 0).val < 262144 := (i 0).isLt
  have hi1 : (i 1).val < 128 := (i 1).isLt
  have hN : cfg0.N = 128 := N_0
  refine ⟨⟨(i 0).val / 2048, by omega⟩, flush0_8 _, ?_⟩
  rw [mem_blk8]
  obtain ⟨-, -, -, -, -, -, -, -, -, -, -, -, -, -, e70, e71, e80, e81⟩ := idx_facts ⟨(i 0).val / 2048, by omega⟩
  intro a
  match a with
  | ⟨0, _⟩ =>
    show win0_8.index ⟨(i 0).val / 2048, _⟩ (0 : Fin 2) * 2048 ≤ (i 0).val ∧ (i 0).val < win0_8.index ⟨(i 0).val / 2048, _⟩ (0 : Fin 2) * 2048 + 2048
    rw [e80]; show (i 0).val / 2048 * 2048 ≤ (i 0).val ∧ (i 0).val < (i 0).val / 2048 * 2048 + 2048; omega
  | ⟨1, _⟩ =>
    show win0_8.index ⟨(i 0).val / 2048, _⟩ (1 : Fin 2) * 128 ≤ (i 1).val ∧ (i 1).val < win0_8.index ⟨(i 0).val / 2048, _⟩ (1 : Fin 2) * 128 + 128
    rw [e81]; omega

theorem mem_blk7 (t : Fin cfg0.N) (i : S262144x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v8_0).slice (win0_7.rect t)).set ↔ _
  rw [View.set_slice_whole, Rect.mem_set_unit]
  exact Iff.rfl

/-- Row i₀ lies in the block of point ⌊i₀ / 2048⌋: the 128 points' blocks tile the array. -/
theorem cover7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  have hN : cfg0.N = 128 := N_0
  refine ⟨⟨(i 0).val / 2048, by omega⟩, flush0_7 _, ?_⟩
  rw [mem_blk7]
  obtain ⟨-, -, -, -, -, -, -, -, -, -, -, -, -, -, e70, e71, e80, e81⟩ := idx_facts ⟨(i 0).val / 2048, by omega⟩
  intro a
  match a with
  | ⟨0, _⟩ =>
    show win0_7.index ⟨(i 0).val / 2048, _⟩ (0 : Fin 2) * 2048 ≤ (i 0).val ∧ (i 0).val < win0_7.index ⟨(i 0).val / 2048, _⟩ (0 : Fin 2) * 2048 + 2048
    rw [e70]; show (i 0).val / 2048 * 2048 ≤ (i 0).val ∧ (i 0).val < (i 0).val / 2048 * 2048 + 2048; omega
  | ⟨1, _⟩ =>
    show win0_7.index ⟨(i 0).val / 2048, _⟩ (1 : Fin 2) * 128 ≤ (i 1).val ∧ (i 1).val < win0_7.index ⟨(i 0).val / 2048, _⟩ (1 : Fin 2) * 128 + 128
    rw [e71]; omega

/-- The cell array after the run is the specification's. -/
theorem final_cell (c : Dev nD) : (dats m 0 c).arrAt 8 cfg0.N = Cert.CellSpec.cellArr (m ((c.tc : Thread nD τ).loc main_arg0)) (m ((c.tc : Thread nD τ).loc main_arg1)) (m ((c.tc : Thread nD τ).loc main_arg2)) (wxT m c) (whT m c) (stackBx m c) (stackBh m c) :=
  (dats m 0 c).arrAt_eq_of_cover 8 _ (fun t _ => flushed_cell m c t) cover8

/-- The hidden array after the run is the specification's. -/
theorem final_hidden (c : Dev nD) : (dats m 0 c).arrAt 7 cfg0.N = Cert.CellSpec.hiddenArr (m ((c.tc : Thread nD τ).loc main_arg0)) (m ((c.tc : Thread nD τ).loc main_arg1)) (m ((c.tc : Thread nD τ).loc main_arg2)) (wxT m c) (whT m c) (stackBx m c) (stackBh m c) :=
  (dats m 0 c).arrAt_eq_of_cover 7 _ (fun t _ => flushed_hidden m c t) cover7

/-- The kernel's run with its results named: the hidden array (returned twice) and the cell array are the
    specification's arrays of the arguments, and the arguments end unchanged. -/
theorem run : θ_run defs (onTc (τ := τ) (main (F := Ideal))) ⟨m, fun _ => 0, ρ⟩ fun r => ∀ c : Dev nD,
      r.2.mem ((c.tc : Thread nD τ).loc main_v8_0) = Cert.CellSpec.hiddenArr (m ((c.tc : Thread nD τ).loc main_arg0)) (m ((c.tc : Thread nD τ).loc main_arg1)) (m ((c.tc : Thread nD τ).loc main_arg2)) (wxT m c) (whT m c) (stackBx m c) (stackBh m c)
      ∧ r.2.mem ((c.tc : Thread nD τ).loc main_v8_0) = Cert.CellSpec.hiddenArr (m ((c.tc : Thread nD τ).loc main_arg0)) (m ((c.tc : Thread nD τ).loc main_arg1)) (m ((c.tc : Thread nD τ).loc main_arg2)) (wxT m c) (whT m c) (stackBx m c) (stackBh m c)
      ∧ r.2.mem ((c.tc : Thread nD τ).loc main_v8_1) = Cert.CellSpec.cellArr (m ((c.tc : Thread nD τ).loc main_arg0)) (m ((c.tc : Thread nD τ).loc main_arg1)) (m ((c.tc : Thread nD τ).loc main_arg2)) (wxT m c) (whT m c) (stackBx m c) (stackBh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 7).trans (final_hidden m c), ((h c).1 7).trans (final_hidden m c),
      ((h c).1 8).trans (final_cell m c), args_of_post m (dats m) (A_eq m) r h c⟩)
    (run_main m ρ)

end Cert.KernelIdeal.CellValue

end
-- ==== Proof.RefCell.lean ====
/-
  The reference computes the specification: its new cell array and its new hidden array, as the
  stage-by-stage terms of its nineteen arguments, are `CellSpec.cellArr` and `CellSpec.hiddenArr` of
  x, h, c and of the stacked parameter arrays (the transposed stacked weights and the stacked biases,
  which stay the opaque terms the program computes them by).
-/
import proofs.«170013_j12979391168907_1_alg».proof.Proof.Gen.ReferenceIdeal.Read
import proofs.«170013_j12979391168907_1_alg».proof.Proof.CellSpec
import Idealize.ShloMosaic.Lib.IdealHost

noncomputable section

namespace Cert.ReferenceIdeal.CellValue

open Cert.ReferenceIdeal Cert.ReferenceIdeal.Read Idealize.ShloMosaic Idealize.ShloMosaic.ValueIdx

section Stages

variable (x0 : (⟨S262144x13, .f32⟩ : BufTy).Contents (Elt Ideal)) (x1 x2 : (⟨S262144x128, .f32⟩ : BufTy).Contents (Elt Ideal))
  (x3 : (⟨S128x13, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x13, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x13, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
  (x15 : (⟨S128x13, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal))

/-- The input product at row `r`, column `q`: the sum over the 13 features. -/
theorem v5_ix (r : Fin 262144) (q : Fin 512) :
    val_main_v5 (F := Ideal) x0 x3 x7 x11 x15 (ix2 r q) = ∑ k : Fin 13, x0 (ix2 r k) * (val_main_v4 (F := Ideal) x3 x7 x11 x15) (ix2 k q) := by
  rw [val_main_v5_apply]
  refine Finset.sum_congr rfl fun k _ => ?_
  rw [show lidx_main_v5 (ix2 r q) k = ix2 r k from
      funext fun a => Fin.ext (by match a with | ⟨0, _⟩ => rfl | ⟨1, _⟩ => rfl),
    show ridx_main_v5 (ix2 r q) k = ix2 k q from
      funext fun a => Fin.ext (by match a with | ⟨0, _⟩ => rfl | ⟨1, _⟩ => rfl)]

/-- The hidden product at row `r`, column `q`: the sum over the 128 hidden units. -/
theorem v10_ix (r : Fin 262144) (q : Fin 512) :
    val_main_v10 (F := Ideal) x1 x5 x9 x13 x17 (ix2 r q) = ∑ k : Fin 128, x1 (ix2 r k) * (val_main_v9 (F := Ideal) x5 x9 x13 x17) (ix2 k q) := by
  rw [val_main_v10_apply]
  refine Finset.sum_congr rfl fun k _ => ?_
  rw [show lidx_main_v10 (ix2 r q) k = ix2 r k from
      funext fun a => Fin.ext (by match a with | ⟨0, _⟩ => rfl | ⟨1, _⟩ => rfl),
    show ridx_main_v10 (ix2 r q) k = ix2 k q from
      funext fun a => Fin.ext (by match a with | ⟨0, _⟩ => rfl | ⟨1, _⟩ => rfl)]

/-- The input bias, broadcast along the rows, reads the stacked bias at the column. -/
theorem v7_ix (r : Fin 262144) (q : Fin 512) :
    val_main_v7 (F := Ideal) x4 x8 x12 x16 (ix2 r q) = val_main_v1 (F := Ideal) x4 x8 x12 x16 (ix1 q) := by
  rw [val_main_v7_apply, val_main_v6_apply]
  exact congrArg _ (funext fun a => Fin.ext (by match a with | ⟨0, _⟩ => rfl))

/-- The hidden bias, broadcast along the rows, reads the stacked bias at the column. -/
theorem v13_ix (r : Fin 262144) (q : Fin 512) :
    val_main_v13 (F := Ideal) x6 x10 x14 x18 (ix2 r q) = val_main_v3 (F := Ideal) x6 x10 x14 x18 (ix1 q) := by
  rw [val_main_v13_apply, val_main_v12_apply]
  exact congrArg _ (funext fun a => Fin.ext (by match a with | ⟨0, _⟩ => rfl))

/-- The sum of the four terms at row `r`, column `q` is the stacked pre-activation. -/
theorem pre_eq (r : Fin 262144) (q : Fin 512) :
    val_main_v14 (F := Ideal) x0 x1 x3 x4 x5 x6 x7 x8 x9 x10 x11 x12 x13 x14 x15 x16 x17 x18 (ix2 r q)
      = Cert.CellSpec.pre x0 x1 (val_main_v4 (F := Ideal) x3 x7 x11 x15) (val_main_v9 (F := Ideal) x5 x9 x13 x17)
          (val_main_v1 (F := Ideal) x4 x8 x12 x16) (val_main_v3 (F := Ideal) x6 x10 x14 x18) r q := by
  rw [val_main_v14_apply, val_main_v11_apply, val_main_v8_apply, v5_ix, v7_ix, v10_ix, v13_ix]
  rfl

/-- The slice starting at column 0 reads row `r`'s pre-activation at gate column `0 + j`. -/
theorem v15_ix (r : Fin 262144) (j : Fin 128) :
    val_main_v15 (F := Ideal) x0 x1 x3 x4 x5 x6 x7 x8 x9 x10 x11 x12 x13 x14 x15 x16 x17 x18 (ix2 r j)
      = Cert.CellSpec.pre x0 x1 (val_main_v4 (F := Ideal) x3 x7 x11 x15) (val_main_v9 (F := Ideal) x5 x9 x13 x17)
          (val_main_v1 (F := Ideal) x4 x8 x12 x16) (val_main_v3 (F := Ideal) x6 x10 x14 x18) r (Cert.CellSpec.gateCol 0 (by decide) j) := by
  rw [val_main_v15_apply, show idx_main_v15 (ix2 r j) = ix2 r (Cert.CellSpec.gateCol 0 (by decide) j) from
    funext fun a => Fin.ext (by match a with | ⟨0, _⟩ => rfl | ⟨1, _⟩ => exact (Nat.zero_add _).symm), pre_eq]

/-- The slice starting at column 128 reads row `r`'s pre-activation at gate column `128 + j`. -/
theorem v16_ix (r : Fin 262144) (j : Fin 128) :
    val_main_v16 (F := Ideal) x0 x1 x3 x4 x5 x6 x7 x8 x9 x10 x11 x12 x13 x14 x15 x16 x17 x18 (ix2 r j)
      = Cert.CellSpec.pre x0 x1 (val_main_v4 (F := Ideal) x3 x7 x11 x15) (val_main_v9 (F := Ideal) x5 x9 x13 x17)
          (val_main_v1 (F := Ideal) x4 x8 x12 x16) (val_main_v3 (F := Ideal) x6 x10 x14 x18) r (Cert.CellSpec.gateCol 128 (by decide) j) := by
  rw [val_main_v16_apply, show idx_main_v16 (ix2 r j) = ix2 r (Cert.CellSpec.gateCol 128 (by decide) j) from
    funext fun a => Fin.ext (by match a with | ⟨0, _⟩ => rfl | ⟨1, _⟩ => rfl), pre_eq]

/-- The slice starting at column 256 reads row `r`'s pre-activation at gate column `256 + j`. -/
theorem v17_ix (r : Fin 262144) (j : Fin 128) :
    val_main_v17 (F := Ideal) x0 x1 x3 x4 x5 x6 x7 x8 x9 x10 x11 x12 x13 x14 x15 x16 x17 x18 (ix2 r j)
      = Cert.CellSpec.pre x0 x1 (val_main_v4 (F := Ideal) x3 x7 x11 x15) (val_main_v9 (F := Ideal) x5 x9 x13 x17)
          (val_main_v1 (F := Ideal) x4 x8 x12 x16) (val_main_v3 (F := Ideal) x6 x10 x14 x18) r (Cert.CellSpec.gateCol 256 (by decide) j) := by
  rw [val_main_v17_apply, show idx_main_v17 (ix2 r j) = ix2 r (Cert.CellSpec.gateCol 256 (by decide) j) from
    funext fun a => Fin.ext (by match a with | ⟨0, _⟩ => rfl | ⟨1, _⟩ => rfl), pre_eq]

/-- The slice starting at column 384 reads row `r`'s pre-activation at gate column `384 + j`. -/
theorem v18_ix (r : Fin 262144) (j : Fin 128) :
    val_main_v18 (F := Ideal) x0 x1 x3 x4 x5 x6 x7 x8 x9 x10 x11 x12 x13 x14 x15 x16 x17 x18 (ix2 r j)
      = Cert.CellSpec.pre x0 x1 (val_main_v4 (F := Ideal) x3 x7 x11 x15) (val_main_v9 (F := Ideal) x5 x9 x13 x17)
          (val_main_v1 (F := Ideal) x4 x8 x12 x16) (val_main_v3 (F := Ideal) x6 x10 x14 x18) r (Cert.CellSpec.gateCol 384 (by decide) j) := by
  rw [val_main_v18_apply, show idx_main_v18 (ix2 r j) = ix2 r (Cert.CellSpec.gateCol 384 (by decide) j) from
    funext fun a => Fin.ext (by match a with | ⟨0, _⟩ => rfl | ⟨1, _⟩ => rfl), pre_eq]

/-- One over one plus the exponential of the negation is the logistic function. -/
theorem v24_eq (i : S262144x128.Idx) :
    val_main_v24 (F := Ideal) x0 x1 x3 x4 x5 x6 x7 x8 x9 x10 x11 x12 x13 x14 x15 x16 x17 x18 i = Ideal.logistic (val_main_v15 (F := Ideal) x0 x1 x3 x4 x5 x6 x7 x8 x9 x10 x11 x12 x13 x14 x15 x16 x17 x18 i) := by
  rw [val_main_v24_apply, val_main_v23_apply, val_main_cst_0_apply, val_main_v22_apply, val_main_v21_apply, val_main_cst_apply, val_main_v20_apply, val_main_v19_apply]
  simp only [Ideal.hostDivf_def, Ideal.ofBits_def, Ideal.addf_def, Ideal.hostUnary_exp_def, Ideal.hostNegf_def,
    Ideal.negf_def, Ideal.ofBits_one_f32]
  rfl

/-- One over one plus the exponential of the negation is the logistic function. -/
theorem v30_eq (i : S262144x128.Idx) :
    val_main_v30 (F := Ideal) x0 x1 x3 x4 x5 x6 x7 x8 x9 x10 x11 x12 x13 x14 x15 x16 x17 x18 i = Ideal.logistic (val_main_v16 (F := Ideal) x0 x1 x3 x4 x5 x6 x7 x8 x9 x10 x11 x12 x13 x14 x15 x16 x17 x18 i) := by
  rw [val_main_v30_apply, val_main_v29_apply, val_main_cst_2_apply, val_main_v28_apply, val_main_v27_apply, val_main_cst_1_apply, val_main_v26_apply, val_main_v25_apply]
  simp only [Ideal.hostDivf_def, Ideal.ofBits_def, Ideal.addf_def, Ideal.hostUnary_exp_def, Ideal.hostNegf_def,
    Ideal.negf_def, Ideal.ofBits_one_f32]
  rfl

/-- One over one plus the exponential of the negation is the logistic function. -/
theorem v37_eq (i : S262144x128.Idx) :
    val_main_v37 (F := Ideal) x0 x1 x3 x4 x5 x6 x7 x8 x9 x10 x11 x12 x13 x14 x15 x16 x17 x18 i = Ideal.logistic (val_main_v18 (F := Ideal) x0 x1 x3 x4 x5 x6 x7 x8 x9 x10 x11 x12 x13 x14 x15 x16 x17 x18 i) := by
  rw [val_main_v37_apply, val_main_v36_apply, val_main_cst_6_apply, val_main_v35_apply, val_main_v34_apply, val_main_cst_5_apply, val_main_v33_apply, val_main_v32_apply]
  simp only [Ideal.hostDivf_def, Ideal.ofBits_def, Ideal.addf_def, Ideal.hostUnary_exp_def, Ideal.hostNegf_def,
    Ideal.negf_def, Ideal.ofBits_one_f32]
  rfl

/-- The minimum with the upper literal of the maximum with the lower literal is the clipping. -/
theorem v31_eq (i : S262144x128.Idx) :
    val_main_v31 (F := Ideal) x0 x1 x3 x4 x5 x6 x7 x8 x9 x10 x11 x12 x13 x14 x15 x16 x17 x18 i = Cert.CellSpec.clip (val_main_v17 (F := Ideal) x0 x1 x3 x4 x5 x6 x7 x8 x9 x10 x11 x12 x13 x14 x15 x16 x17 x18 i) := by
  rw [val_main_v31_apply, val_main_call0_v4_apply, val_main_call0_v3_apply, val_main_cst_4_apply,
    val_main_call0_v2_apply, val_main_call0_v1_apply, val_main_call0_v0_apply, val_main_cst_3_apply]
  rfl

/-- The minimum with the upper literal of the maximum with the lower literal is the clipping. -/
theorem v41_eq (i : S262144x128.Idx) :
    val_main_v41 (F := Ideal) x0 x1 x2 x3 x4 x5 x6 x7 x8 x9 x10 x11 x12 x13 x14 x15 x16 x17 x18 i = Cert.CellSpec.clip (val_main_v40 (F := Ideal) x0 x1 x2 x3 x4 x5 x6 x7 x8 x9 x10 x11 x12 x13 x14 x15 x16 x17 x18 i) := by
  rw [val_main_v41_apply, val_main_call1_v4_apply, val_main_call1_v3_apply, val_main_cst_8_apply,
    val_main_call1_v2_apply, val_main_call1_v1_apply, val_main_call1_v0_apply, val_main_cst_7_apply]
  rfl

/-- The new cell entry at row `r`, unit `j`. -/
theorem cell_ix (r : Fin 262144) (j : Fin 128) :
    val_main_v40 (F := Ideal) x0 x1 x2 x3 x4 x5 x6 x7 x8 x9 x10 x11 x12 x13 x14 x15 x16 x17 x18 (ix2 r j)
      = Cert.CellSpec.cellAt (Cert.CellSpec.pre x0 x1 (val_main_v4 (F := Ideal) x3 x7 x11 x15) (val_main_v9 (F := Ideal) x5 x9 x13 x17)
          (val_main_v1 (F := Ideal) x4 x8 x12 x16) (val_main_v3 (F := Ideal) x6 x10 x14 x18) r) (x2 (ix2 r j)) j := by
  rw [val_main_v40_apply, val_main_v38_apply, val_main_v39_apply, v30_eq, v24_eq, v31_eq, v16_ix, v15_ix, v17_ix]
  rfl

/-- The new hidden entry at row `r`, unit `j`. -/
theorem hidden_ix (r : Fin 262144) (j : Fin 128) :
    val_main_v42 (F := Ideal) x0 x1 x2 x3 x4 x5 x6 x7 x8 x9 x10 x11 x12 x13 x14 x15 x16 x17 x18 (ix2 r j)
      = Cert.CellSpec.hiddenAt (Cert.CellSpec.pre x0 x1 (val_main_v4 (F := Ideal) x3 x7 x11 x15) (val_main_v9 (F := Ideal) x5 x9 x13 x17)
          (val_main_v1 (F := Ideal) x4 x8 x12 x16) (val_main_v3 (F := Ideal) x6 x10 x14 x18) r) (x2 (ix2 r j)) j := by
  rw [val_main_v42_apply, v37_eq, v41_eq, v18_ix, cell_ix]
  rfl

end Stages

theorem cell_eq (x0 : (⟨S262144x13, .f32⟩ : BufTy).Contents (Elt Ideal)) (x1 x2 : (⟨S262144x128, .f32⟩ : BufTy).Contents (Elt Ideal)) (x3 : (⟨S128x13, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x13, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x13, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x13, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v40 (F := Ideal) x0 x1 x2 x3 x4 x5 x6 x7 x8 x9 x10 x11 x12 x13 x14 x15 x16 x17 x18
      = Cert.CellSpec.cellArr x0 x1 x2 (val_main_v4 (F := Ideal) x3 x7 x11 x15) (val_main_v9 (F := Ideal) x5 x9 x13 x17)
          (val_main_v1 (F := Ideal) x4 x8 x12 x16) (val_main_v3 (F := Ideal) x6 x10 x14 x18) := by
  funext i
  obtain ⟨r, j, rfl⟩ : ∃ (r : Fin 262144) (j : Fin 128), i = ix2 r j := ⟨i 0, i 1, eq_ix2 i⟩
  rw [Cert.CellSpec.cellArr_ix2]
  exact cell_ix x0 x1 x2 x3 x4 x5 x6 x7 x8 x9 x10 x11 x12 x13 x14 x15 x16 x17 x18 r j

theorem hidden_eq (x0 : (⟨S262144x13, .f32⟩ : BufTy).Contents (Elt Ideal)) (x1 x2 : (⟨S262144x128, .f32⟩ : BufTy).Contents (Elt Ideal)) (x3 : (⟨S128x13, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x13, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x13, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x13, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v42 (F := Ideal) x0 x1 x2 x3 x4 x5 x6 x7 x8 x9 x10 x11 x12 x13 x14 x15 x16 x17 x18
      = Cert.CellSpec.hiddenArr x0 x1 x2 (val_main_v4 (F := Ideal) x3 x7 x11 x15) (val_main_v9 (F := Ideal) x5 x9 x13 x17)
          (val_main_v1 (F := Ideal) x4 x8 x12 x16) (val_main_v3 (F := Ideal) x6 x10 x14 x18) := by
  funext i
  obtain ⟨r, j, rfl⟩ : ∃ (r : Fin 262144) (j : Fin 128), i = ix2 r j := ⟨i 0, i 1, eq_ix2 i⟩
  rw [Cert.CellSpec.hiddenArr_ix2]
  exact hidden_ix x0 x1 x2 x3 x4 x5 x6 x7 x8 x9 x10 x11 x12 x13 x14 x15 x16 x17 x18 r j

end Cert.ReferenceIdeal.CellValue

end
-- ==== Proof.lean ====
/-
  The certificate of the fused gate kernel against its reference.

  Both programs compute, for every batch row r and hidden unit j, from the stacked pre-activations
      P r q = ((Σ_k x[r,k]·WxT[k,q] + bx[q]) + Σ_k h[r,k]·WhT[k,q]) + bh[q]      (q over the 512 gate columns),
  the new cell  c'[r,j] = σ(P r (128+j))·c[r,j] + σ(P r j)·clip(P r (256+j))  and the new hidden value
  h'[r,j] = σ(P r (384+j))·clip(c'[r,j]), with σ the logistic function and clip v = min(1, max(−1, v)).
  The kernel does it block by block over 128 grid points (its two products accumulate into zero, its
  changes of float format are the identity on the extended reals, its logistic is the function
  1/(1+e^(−v)) the reference spells out); the reference does it on whole arrays. The additions stand in
  the same order on both sides and every sum runs over the same index set, so no law beyond reading each
  operation at an index is needed, and finiteness of the inputs is never used.

  The frames: the kernel's program (read at the word level and on the extended reals) runs its stacking
  operations and its pipelined region to the end and leaves its nineteen arguments as they were; the
  reference's run ends with each result at its composed term and its arguments unchanged. The ideal
  pass rewrote nothing, so the preservation claim has nothing to state.
-/
import proofs.«170013_j12979391168907_1_alg».proof.Defs
import proofs.«170013_j12979391168907_1_alg».proof.Proof.Gen.Kernel
import proofs.«170013_j12979391168907_1_alg».proof.Proof.Gen.KernelIdeal
import proofs.«170013_j12979391168907_1_alg».proof.Proof.Gen.ReferenceIdeal
import proofs.«170013_j12979391168907_1_alg».proof.Proof.Gen.Pre_finite_inputs
import proofs.«170013_j12979391168907_1_alg».proof.Proof.Gen.ReferenceIdeal.Run
import proofs.«170013_j12979391168907_1_alg».proof.Proof.Gen.ReferenceIdeal.Read
import proofs.«170013_j12979391168907_1_alg».proof.Proof.CellFrame
import proofs.«170013_j12979391168907_1_alg».proof.Proof.IdealCellFrame
import proofs.«170013_j12979391168907_1_alg».proof.Proof.IdealCellValue
import proofs.«170013_j12979391168907_1_alg».proof.Proof.RefCell
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Cell.frame m ρ

theorem frame_kernelIdeal : Cert.frame_KernelIdeal := fun m ρ _ => Cert.KernelIdeal.Cell.frame m ρ

/-- The reference's run with its three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both runs end at the specification's arrays of arguments that agree: the kernel's by its frame run read
    block by block, the reference's by its run read stage by stage; the stacked parameter arrays are the same
    terms of the arguments on both sides. -/
theorem algebraic : Cert.algebraic_KernelIdeal_ReferenceIdeal := by
  intro m ρ m' ρ' _ hagree
  refine ⟨_, _, _, Cert.KernelIdeal.CellValue.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8, a9, a10, a11, a12, a13, a14, a15, a16, a17, a18⟩ := hagree c
  have hh : Cert.ReferenceIdeal.Value.res_main_v42 (F := Ideal) m' c
      = Cert.CellSpec.hiddenArr (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (Cert.KernelIdeal.CellValue.wxT m c) (Cert.KernelIdeal.CellValue.whT m c)
          (Cert.KernelIdeal.CellValue.stackBx m c) (Cert.KernelIdeal.CellValue.stackBh m c) := by
    rw [Cert.ReferenceIdeal.Read.val_main_v42_eq, Cert.ReferenceIdeal.CellValue.hidden_eq, a0, a1, a2, a3, a4, a5, a6, a7, a8, a9, a10, a11, a12, a13, a14, a15, a16, a17, a18]
    rfl
  have hc : Cert.ReferenceIdeal.Value.res_main_v40 (F := Ideal) m' c
      = Cert.CellSpec.cellArr (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (Cert.KernelIdeal.CellValue.wxT m c) (Cert.KernelIdeal.CellValue.whT m c)
          (Cert.KernelIdeal.CellValue.stackBx m c) (Cert.KernelIdeal.CellValue.stackBh m c) := by
    rw [Cert.ReferenceIdeal.Read.val_main_v40_eq, Cert.ReferenceIdeal.CellValue.cell_eq, a0, a1, a2, a3, a4, a5, a6, a7, a8, a9, a10, a11, a12, a13, a14, a15, a16, a17, a18]
    rfl
  exact ⟨h0.trans hh, h1.trans hh, h2.trans hc, hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
